-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg12 : FVec F S256x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x128 .f32 := Host.absf main_arg12
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  main_v58

def fn_part2 {F : FTy → Type} [FloatOps F] (main_arg8 : FVec F S128 .f32) (main_arg9 : FVec F S128x128 .f32) (main_arg10 : FVec F S256x128 .f32) (main_arg11 : FVec F S128 .f32) (main_arg12 : FVec F S256x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_v48 main_v49 main_v50

def fn_part1 {F : FTy → Type} [FloatOps F] (main_arg5 : FVec F S64 .f32) (main_arg6 : FVec F S64x64 .f32) (main_arg7 : FVec F S128x128 .f32) (main_arg8 : FVec F S128 .f32) (main_arg9 : FVec F S128x128 .f32) (main_arg10 : FVec F S256x128 .f32) (main_arg11 : FVec F S128 .f32) (main_arg12 : FVec F S256x128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) (main_arg6 : FVec F S64x64 .f32) (main_arg7 : FVec F S128x128 .f32) (main_arg8 : FVec F S128 .f32) (main_arg9 : FVec F S128x128 .f32) (main_arg10 : FVec F S256x128 .f32) (main_arg11 : FVec F S128 .f32) (main_arg12 : FVec F S256x128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x64 : Shape := ⟨2, ![1, 64]⟩
abbrev S2000x64 : Shape := ⟨2, ![2000, 64]⟩
abbrev S800000x64 : Shape := ⟨2, ![800000, 64]⟩
abbrev S50000x1 : Shape := ⟨2, ![50000, 1]⟩
abbrev S2000x1 : Shape := ⟨2, ![2000, 1]⟩
abbrev S50000x128 : Shape := ⟨2, ![50000, 128]⟩
abbrev S800000x128 : Shape := ⟨2, ![800000, 128]⟩
abbrev S1x128 : Shape := ⟨2, ![1, 128]⟩
abbrev S2000x128 : Shape := ⟨2, ![2000, 128]⟩
abbrev S50000x256 : Shape := ⟨2, ![50000, 256]⟩
abbrev S800000x256 : Shape := ⟨2, ![800000, 256]⟩
abbrev S2000x256 : Shape := ⟨2, ![2000, 256]⟩

abbrev nBuf : Space → Nat
  | .hbm => 75
  | .vmem => 39
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S256x128, .f32⟩
  | .hbm, ⟨11, _⟩ => ⟨S128, .f32⟩
  | .hbm, ⟨12, _⟩ => ⟨S256x128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S1x64, .f32⟩
  | .hbm, ⟨24, _⟩ => ⟨S50000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S50000x1, .f32⟩
  | .hbm, ⟨39, _⟩ => ⟨S1x64, .f32⟩
  | .hbm, ⟨40, _⟩ => ⟨S50000x64, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x1, .f32⟩
  | .hbm, ⟨56, _⟩ => ⟨S1x128, .f32⟩
  | .hbm, ⟨57, _⟩ => ⟨S50000x128, .f32⟩
  | .hbm, ⟨58, _⟩ => ⟨S50000x256, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x256, .f32⟩
  | .hbm, ⟨68, _⟩ => ⟨S_, .f32⟩
  | .hbm, ⟨69, _⟩ => ⟨S50000x256, .f32⟩
  | .hbm, ⟨70, _⟩ => ⟨S800000x1, .i32⟩
  | .hbm, ⟨71, _⟩ => ⟨S50000x256, .f32⟩
  | .hbm, ⟨72, _⟩ => ⟨S50000x1, .f32⟩
  | .hbm, ⟨73, _⟩ => ⟨S1x128, .f32⟩
  | .hbm, ⟨74, _⟩ => ⟨S50000x128, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x1, .f32⟩
  | .local _ .vmem, ⟨9, _⟩ => ⟨S2000x1, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S2000x64, .f32⟩
  | .local _ .vmem, ⟨16, _⟩ => ⟨S2000x64, .f32⟩
  | .local _ .vmem, ⟨17, _⟩ => ⟨S2000x128, .f32⟩
  | .local _ .vmem, ⟨18, _⟩ => ⟨S2000x128, .f32⟩
  | .local _ .vmem, ⟨19, _⟩ => ⟨S2000x1, .f32⟩
  | .local _ .vmem, ⟨20, _⟩ => ⟨S2000x1, .f32⟩
  | .local _ .vmem, ⟨21, _⟩ => ⟨S2000x128, .f32⟩
  | .local _ .vmem, ⟨22, _⟩ => ⟨S2000x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S2000x128, .f32⟩
  | .local _ .vmem, ⟨27, _⟩ => ⟨S2000x128, .f32⟩
  | .local _ .vmem, ⟨28, _⟩ => ⟨S2000x256, .f32⟩
  | .local _ .vmem, ⟨29, _⟩ => ⟨S2000x256, .f32⟩
  | .local _ .vmem, ⟨30, _⟩ => ⟨S2000x1, .f32⟩
  | .local _ .vmem, ⟨31, _⟩ => ⟨S2000x1, .f32⟩
  | .local _ .vmem, ⟨32, _⟩ => ⟨S2000x256, .f32⟩
  | .local _ .vmem, ⟨33, _⟩ => ⟨S2000x256, .f32⟩
  | .local _ .vmem, ⟨34, _⟩ => ⟨S256x128, .f32⟩
  | .local _ .vmem, ⟨35, _⟩ => ⟨S1x128, .f32⟩
  | .local _ .vmem, ⟨36, _⟩ => ⟨S256x128, .f32⟩
  | .local _ .vmem, ⟨37, _⟩ => ⟨S2000x128, .f32⟩
  | .local _ .vmem, ⟨38, _⟩ => ⟨S2000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_c_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem6_1 : DmaSem sig := 38

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S_S50000x64 : S_.BroadcastsInDim S50000x64 (![] : Fin 0 → Fin S50000x64.rank)
  shapeCasts_S50000_S50000x1 : S50000.ShapeCasts S50000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x64_S2000x64 : S2000x64.ShapeCasts S2000x64
  broadcasts_S2000x1_S2000x64 : S2000x1.Broadcasts S2000x64
  concatenates_S50000x64_S50000x64_S50000x128_d1 : Shape.Concatenates [S50000x64, S50000x64] S50000x128 1
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  concatenates_S50000x64_S50000x64_S50000x128_S50000x256_d1 : Shape.Concatenates [S50000x64, S50000x64, S50000x128] S50000x256 1
  bcast_S_S50000x256 : S_.BroadcastsInDim S50000x256 (![] : Fin 0 → Fin S50000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S2000x1_S2000x256 : S2000x1.Broadcasts S2000x256
  inb_S256x128_S256x128_0_0 : ∀ a, (![0, 0] : Fin 2 → Nat) a + S256x128.size a ≤ S256x128.size a
  h_S256x128 : 0 < S256x128.numel
  scatter_S50000_S800000x1_S800000_n_0_0_1_wf : ScatterDims.WF S50000 S800000x1 S800000 [] [0] [0] 1
  dot_S2000x64_S64x64_S2000x64_1_0_0_1_n_n_wf : DotDims.WF S2000x64 S64x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .f32 = 32 ∨ (Rect.block (s := S50000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S256x128.size a
  hwx3_5 : ∀ i : grid3.Coords, EltTy.bits .f32 = 32 ∨ (Rect.block (s := S256x128) S256x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v33) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v47) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S256x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v50) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S256x128 : Shape := ⟨2, ![256, 128]⟩
abbrev S1x800000 : Shape := ⟨2, ![1, 800000]⟩
abbrev S800000 : Shape := ⟨1, ![800000]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x128 : Shape := ⟨2, ![50000, 128]⟩
abbrev S800000x128 : Shape := ⟨2, ![800000, 128]⟩
abbrev S1x128 : Shape := ⟨2, ![1, 128]⟩
abbrev S50000x256 : Shape := ⟨2, ![50000, 256]⟩
abbrev S800000x256 : Shape := ⟨2, ![800000, 256]⟩

abbrev nBuf : Space → Nat
  | .hbm => 128
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S256x128, .f32⟩
  | .hbm, ⟨11, _⟩ => ⟨S128, .f32⟩
  | .hbm, ⟨12, _⟩ => ⟨S256x128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x64, .f32⟩
  | .hbm, ⟨18, _⟩ => ⟨S1x64, .f32⟩
  | .hbm, ⟨19, _⟩ => ⟨S50000x64, .f32⟩
  | .hbm, ⟨20, _⟩ => ⟨S50000x64, .f32⟩
  | .hbm, ⟨21, _⟩ => ⟨S_, .f32⟩
  | .hbm, ⟨22, _⟩ => ⟨S50000x64, .f32⟩
  | .hbm, ⟨23, _⟩ => ⟨S50000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S_, .f32⟩
  | .hbm, ⟨34, _⟩ => ⟨S50000x64, .f32⟩
  | .hbm, ⟨35, _⟩ => ⟨S800000x1, .i32⟩
  | .hbm, ⟨36, _⟩ => ⟨S50000x64, .f32⟩
  | .hbm, ⟨37, _⟩ => ⟨S_, .f32⟩
  | .hbm, ⟨38, _⟩ => ⟨S800000, .f32⟩
  | .hbm, ⟨39, _⟩ => ⟨S_, .f32⟩
  | .hbm, ⟨40, _⟩ => ⟨S50000, .f32⟩
  | .hbm, ⟨41, _⟩ => ⟨S800000x1, .i32⟩
  | .hbm, ⟨42, _⟩ => ⟨S50000, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S50000x1, .f32⟩
  | .hbm, ⟨47, _⟩ => ⟨S50000x64, .f32⟩
  | .hbm, ⟨48, _⟩ => ⟨S50000x64, .f32⟩
  | .hbm, ⟨49, _⟩ => ⟨S50000x64, .f32⟩
  | .hbm, ⟨50, _⟩ => ⟨S1x64, .f32⟩
  | .hbm, ⟨51, _⟩ => ⟨S50000x64, .f32⟩
  | .hbm, ⟨52, _⟩ => ⟨S50000x64, .f32⟩
  | .hbm, ⟨53, _⟩ => ⟨S50000x64, .f32⟩
  | .hbm, ⟨54, _⟩ => ⟨S50000x64, .f32⟩
  | .hbm, ⟨55, _⟩ => ⟨S_, .f32⟩
  | .hbm, ⟨56, _⟩ => ⟨S50000x64, .f32⟩
  | .hbm, ⟨57, _⟩ => ⟨S50000x64, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S_, .f32⟩
  | .hbm, ⟨73, _⟩ => ⟨S800000, .f32⟩
  | .hbm, ⟨74, _⟩ => ⟨S_, .f32⟩
  | .hbm, ⟨75, _⟩ => ⟨S50000, .f32⟩
  | .hbm, ⟨76, _⟩ => ⟨S800000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S50000x1, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S50000x256, .f32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000x256, .f32⟩
  | .hbm, ⟨103, _⟩ => ⟨S_, .f32⟩
  | .hbm, ⟨104, _⟩ => ⟨S50000x256, .f32⟩
  | .hbm, ⟨105, _⟩ => ⟨S800000x1, .i32⟩
  | .hbm, ⟨106, _⟩ => ⟨S50000x256, .f32⟩
  | .hbm, ⟨107, _⟩ => ⟨S_, .f32⟩
  | .hbm, ⟨108, _⟩ => ⟨S800000, .f32⟩
  | .hbm, ⟨109, _⟩ => ⟨S_, .f32⟩
  | .hbm, ⟨110, _⟩ => ⟨S50000, .f32⟩
  | .hbm, ⟨111, _⟩ => ⟨S800000x1, .i32⟩
  | .hbm, ⟨112, _⟩ => ⟨S50000, .f32⟩
  | .hbm, ⟨113, _⟩ => ⟨S_, .f32⟩
  | .hbm, ⟨114, _⟩ => ⟨S50000, .f32⟩
  | .hbm, ⟨115, _⟩ => ⟨S50000, .f32⟩
  | .hbm, ⟨116, _⟩ => ⟨S50000x1, .f32⟩
  | .hbm, ⟨117, _⟩ => ⟨S50000x256, .f32⟩
  | .hbm, ⟨118, _⟩ => ⟨S50000x256, .f32⟩
  | .hbm, ⟨119, _⟩ => ⟨S50000x128, .f32⟩
  | .hbm, ⟨120, _⟩ => ⟨S1x128, .f32⟩
  | .hbm, ⟨121, _⟩ => ⟨S50000x128, .f32⟩
  | .hbm, ⟨122, _⟩ => ⟨S50000x128, .f32⟩
  | .hbm, ⟨123, _⟩ => ⟨S50000x128, .f32⟩
  | .hbm, ⟨124, _⟩ => ⟨S50000x128, .f32⟩
  | .hbm, ⟨125, _⟩ => ⟨S_, .f32⟩
  | .hbm, ⟨126, _⟩ => ⟨S50000x128, .f32⟩
  | .hbm, ⟨127, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_cst : Ref sig .tc := ⟨.hbm, 55, rfl⟩
abbrev main_call1_v0 : Ref sig .tc := ⟨.hbm, 56, rfl⟩
abbrev main_v34 : Ref sig .tc := ⟨.hbm, 57, rfl⟩
abbrev main_v35 : Ref sig .tc := ⟨.hbm, 58, rfl⟩
abbrev main_c_4 : Ref sig .tc := ⟨.hbm, 59, rfl⟩
abbrev main_v36 : Ref sig .tc := ⟨.hbm, 60, rfl⟩
abbrev main_v37 : Ref sig .tc := ⟨.hbm, 61, rfl⟩
abbrev main_c_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call2_cst : Ref sig .tc := ⟨.hbm, 90, rfl⟩
abbrev main_call2_v0 : Ref sig .tc := ⟨.hbm, 91, rfl⟩
abbrev main_v61 : Ref sig .tc := ⟨.hbm, 92, rfl⟩
abbrev main_v62 : Ref sig .tc := ⟨.hbm, 93, rfl⟩
abbrev main_c_10 : Ref sig .tc := ⟨.hbm, 94, rfl⟩
abbrev main_v63 : Ref sig .tc := ⟨.hbm, 95, rfl⟩
abbrev main_v64 : Ref sig .tc := ⟨.hbm, 96, rfl⟩
abbrev main_c_11 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_12 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_cst_14 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_15 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call3_cst : Ref sig .tc := ⟨.hbm, 125, rfl⟩
abbrev main_call3_v0 : Ref sig .tc := ⟨.hbm, 126, rfl⟩
abbrev main_v88 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x64_S50000x64_S50000x128_S50000x256_d1 : Shape.Concatenates [S50000x64, S50000x64, S50000x128] S50000x256 1
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KI.Reg0.lean ====
/-
  The first launch: the dense projection `relu(x · Wp + bp)`, tiled over 25 blocks of 2000 rows.

  At grid point `t` the body is handed the `t`-th block of 2000 rows of `x`, the whole 64×64 weight and the
  whole 1×64 bias row, and stores one 2000×64 value into the output block: the payload `k0_pay1` of the three
  loaded values. Nothing is kept from one point to the next. The proof data of the pipeline therefore say: after
  the body each input buffer holds its block of the array as the region found it, and the output buffer holds the
  payload of those three blocks. The body's triple is run by symbolic execution; the output's single store covers
  its buffer, so what is read back is that store's value.
-/
import proofs.«102054_j21869973471634_1_alg».proof.Proof.P.KernelIdeal.Launch
import proofs.«102054_j21869973471634_1_alg».proof.Proof.Gen.KernelIdeal.Skeleton
import proofs.«102054_j21869973471634_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not
    fetched its block index has not moved since the last fetch, and the body leaves the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole buffer -/

abbrev r0_x : Rect S2000x64 := Rect.unit (s := S2000x64) ![0, 0] S2000x64.size inb_S2000x64_S2000x64_0_0
abbrev r0_w : Rect S64x64 := Rect.unit (s := S64x64) ![0, 0] S64x64.size inb_S64x64_S64x64_0_0
abbrev r0_b : Rect S1x64 := Rect.unit (s := S1x64) ![0, 0] S1x64.size inb_S1x64_S1x64_0_0

/-! ## What the body leaves in the output window's buffer -/

/-- The output buffer after the body, from the three input blocks: its one store, of the payload. -/
def out0_3 (x0 : Vec F S2000x64 .f32) (x1 : Vec F S64x64 .f32) (x2 : Vec F S1x64 .f32) : Vec F S2000x64 .f32 :=
  View.canon [⟨r0_x, k0_pay1 (View.ld x0 r0_x) (View.ld x1 r0_w) (View.ld x2 r0_b)⟩]

/-- The one store covers the whole output buffer. -/
theorem cover0_3 (p0 : Vec F S2000x64 .f32) (y : S2000x64.Idx) :
    ∃ pc ∈ ([⟨r0_x, p0⟩] : List (View.Piece (Elt F) S2000x64 .f32)), y ∈ pc.1.set :=
  View.cover_of_tiled [⟨r0_x, p0⟩] S2000x64.size (by rfl) y

/-! ## The body's triple -/

set_option maxHeartbeats 1000000 in
/-- The body on whole staging buffers, the inputs' at contents `x0 x1 x2` and the output's at anything, runs to
    the end leaving the inputs' as they were and the output's at `out0_3 x0 x1 x2`. -/
theorem sound_kernel0 (c : Dev nD) (E : Set ℕ) (i : grid0.Coords)
    (arg1 : Memref sig .tc .vmem S2000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_relu_kernel i arg1 harg1 arg2 harg2 arg3 harg3 arg4 harg4) K := by
  simp only [cc0__dense_relu_kernel_eq_skeleton]; unfold cc0__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t`
    each input's buffer at its block and the output's at the payload of the input blocks; nothing owed, full shares,
    and the invariant that of a body that keeps nothing (the scoped rest and the generator register, untouched). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KI.Reg3.lean ====
/-
  The last launch: the third mean-aggregation layer,
      relu((agg / max(cnt, 1)) · Wl + bl + feat · Wr),
  tiled over 25 blocks of 2000 rows.

  At grid point `t` the body is handed the `t`-th block of 2000 rows of the summed neighbour features `agg`
  (2000×256), of the neighbour counts `cnt` (2000×1) and of the node features `feat` (2000×256), and the whole
  256×128 weights `Wl`, `Wr` and the 1×128 bias row; it stores one 2000×128 value into the output block: the
  payload `k3_pay1` of the six loaded values. Nothing is kept from one point to the next. The proof data of the
  pipeline therefore say: after the body each input buffer holds its block of the array as the region found it, and
  the output buffer holds the payload of those six blocks. The body's triple is run by symbolic execution; the
  output's single store covers its buffer, so what is read back is that store's value.
-/
import proofs.«102054_j21869973471634_1_alg».proof.Proof.P.KernelIdeal.Launch
import proofs.«102054_j21869973471634_1_alg».proof.Proof.Gen.KernelIdeal.Skeleton
import proofs.«102054_j21869973471634_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: where it is not
    fetched its block index has not moved since the last fetch, and the body leaves the buffer as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take the whole buffer -/

abbrev r3_in : Rect S2000x256 := Rect.unit (s := S2000x256) ![0, 0] S2000x256.size inb_S2000x256_S2000x256_0_0
abbrev r3_cnt : Rect S2000x1 := Rect.unit (s := S2000x1) ![0, 0] S2000x1.size inb_S2000x1_S2000x1_0_0
abbrev r3_w : Rect S256x128 := Rect.unit (s := S256x128) ![0, 0] S256x128.size inb_S256x128_S256x128_0_0
abbrev r3_b : Rect S1x128 := Rect.unit (s := S1x128) ![0, 0] S1x128.size inb_S1x128_S1x128_0_0
abbrev r3_out : Rect S2000x128 := Rect.unit (s := S2000x128) ![0, 0] S2000x128.size inb_S2000x128_S2000x128_0_0

/-! ## What the body leaves in the output window's buffer -/

/-- The output buffer after the body, from the six input blocks (in the windows' order: summed neighbour
    features, counts, node features, left weight, bias row, right weight): its one store, of the payload. -/
def out3_6 (x0 : Vec F S2000x256 .f32) (x1 : Vec F S2000x1 .f32) (x2 : Vec F S2000x256 .f32) (x3 : Vec F S256x128 .f32)
    (x4 : Vec F S1x128 .f32) (x5 : Vec F S256x128 .f32) : Vec F S2000x128 .f32 :=
  View.canon [⟨r3_out, k3_pay1 (View.ld x1 r3_cnt) (View.ld x0 r3_in) (View.ld x2 r3_in) (View.ld x3 r3_w) (View.ld x5 r3_w) (View.ld x4 r3_b)⟩]

/-- The one store covers the whole output buffer. -/
theorem cover3_6 (p0 : Vec F S2000x128 .f32) (y : S2000x128.Idx) :
    ∃ pc ∈ ([⟨r3_out, p0⟩] : List (View.Piece (Elt F) S2000x128 .f32)), y ∈ pc.1.set :=
  View.cover_of_tiled [⟨r3_out, p0⟩] S2000x128.size (by rfl) y

/-! ## The body's triple -/

set_option maxHeartbeats 1000000 in
/-- The body on whole staging buffers, the inputs' at contents `x0 … x5` and the output's at anything, runs to
    the end leaving the inputs' as they were and the output's at `out3_6 x0 … x5`. -/
theorem sound_kernel3 (c : Dev nD) (E : Set ℕ) (i : grid3.Coords)
    (arg1 : Memref sig .tc .vmem S2000x256 .f32) (harg1 : arg1.IsWhole) (arg2 : Memref sig .tc .vmem S2000x1 .f32) (harg2 : arg2.IsWhole)
    (arg3 : Memref sig .tc .vmem S2000x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S256x128 .f32) (harg6 : arg6.IsWhole)
    (arg7 : Memref sig .tc .vmem S2000x128 .f32) (harg7 : arg7.IsWhole)
    (x0 : Vec F S2000x256 .f32) (x1 : Vec F S2000x1 .f32) (x2 : Vec F S2000x256 .f32) (x3 : Vec F S256x128 .f32)
    (x4 : Vec F S1x128 .f32) (x5 : Vec F S256x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E
          (cc3__sage_combine_kernel i arg1 harg1 arg2 harg2 arg3 harg3 arg4 harg4 arg5 harg5 arg6 harg6 arg7 harg7) K := by
  simp only [cc3__sage_combine_kernel_eq_skeleton]; unfold cc3__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of this pipeline on core `c`: the arrays as the region finds them; after the body at point `t`
    each input's buffer at its block and the output's at the payload of the input blocks; nothing owed, full shares,
    and the invariant that of a body that keeps nothing (the scoped rest and the generator register, untouched). -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by
  dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' buffers hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.KI.Run.lean ====
/-
  The whole run of the kernel's program: four launches among stretches of host operations.

  The contents of the TensorCore's buffers are followed through @main as a fold from the launch memory: a stretch
  of host operations applies its operations' pure functions; a launch leaves each of its input arrays as entered
  and its output array at what the pipeline's write-backs fold to, and every other buffer as it was. No host
  operation writes an argument and no launch has an argument as its output, so every argument's buffer ends as
  launched; the result `main_v50` ends at the last launch's folded write-backs.

  Each launch is a segment of the run over the thread state "every unscoped buffer at the fold's contents, the
  generator register at some state, nothing owed"; the launch theorem for a program of several kernel regions then
  gives: every weakly fair execution terminates, and every final memory holds every unscoped buffer at the last
  contents of the fold.
-/
import proofs.«102054_j21869973471634_1_alg».proof.Proof.KI.Reg0
import proofs.«102054_j21869973471634_1_alg».proof.Proof.KI.Reg1
import proofs.«102054_j21869973471634_1_alg».proof.Proof.KI.Reg2
import proofs.«102054_j21869973471634_1_alg».proof.Proof.KI.Reg3
import proofs.«102054_j21869973471634_1_alg».proof.Proof.P.KernelIdeal.Regions

set_option maxRecDepth 16384

noncomputable section

namespace Cert.KernelIdeal.Run

open Cert.KernelIdeal Cert.KernelIdeal.Gen Cert.KernelIdeal.GenP Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

/-- Core `c`'s buffers at launch. -/
abbrev W0 : Dev nD → Valuation τ sig (Elt F) := fun c b => (s₀ m ρ).mem ((c : Dev nD), b)
/-- After the host operations before launch 0. -/
abbrev W1 : Dev nD → Valuation τ sig (Elt F) := fun c => StableHlo.after hostOps0 (W0 m ρ c)
/-- The same read at the TensorCore's references (what launch 0's proof data take). -/
abbrev V1 : (c : Dev nD) → (b : Ref sig .tc) → Buf (Elt F) ((c : Thread nD τ).loc b) := fun c b => W1 m ρ c b
/-- After launch 0: its arrays at what the pipeline leaves (an input as entered, the output at its write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- The host operations before launch 0 leave a buffer they do not write as it was. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
/-- Launch 0 leaves every buffer but its output as it was: one that is none of its arrays bypasses it, and an input
    array's write-backs fold to the array as entered. -/
theorem W2_keep (c : Dev nD) (r : Ref sig .tc) (hr : r ≠ main_v9) :
    W2 m ρ c (Proc.devRef .tc r) = W1 m ρ c (Proc.devRef .tc r) := by
  by_cases h : ∃ w, Pipeline.arrRef spec0 w = r
  · obtain ⟨w, rfl⟩ := h
    have hin : (cfg0.win w).isOut = false := by
      revert hr
      match w with
      | ⟨0, _⟩ => exact fun _ => rfl
      | ⟨1, _⟩ => exact fun _ => rfl
      | ⟨2, _⟩ => exact fun _ => rfl
      | ⟨3, _⟩ => exact fun hr => absurd rfl hr
    exact (W2_arr m ρ c w).trans (((dat0 (V1 m ρ) c).arrAt_in w hin _).trans (A_eq0 (V1 m ρ) c w))
  · exact W2_of_ne m ρ c r (fun w e => h ⟨w, e⟩)

/-- After the host operations before launch 1. -/
abbrev W3 : Dev nD → Valuation τ sig (Elt F) := fun c => StableHlo.after hostOps1 (W2 m ρ c)
/-- The same read at the TensorCore's references (what launch 1's proof data take). -/
abbrev V3 : (c : Dev nD) → (b : Ref sig .tc) → Buf (Elt F) ((c : Thread nD τ).loc b) := fun c b => W3 m ρ c b
/-- After launch 1: its arrays at what the pipeline leaves (an input as entered, the output at its write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- The host operations before launch 1 leave a buffer they do not write as it was. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
/-- Launch 1 leaves every buffer but its output as it was: one that is none of its arrays bypasses it, and an input
    array's write-backs fold to the array as entered. -/
theorem W4_keep (c : Dev nD) (r : Ref sig .tc) (hr : r ≠ main_v22) :
    W4 m ρ c (Proc.devRef .tc r) = W3 m ρ c (Proc.devRef .tc r) := by
  by_cases h : ∃ w, Pipeline.arrRef spec1 w = r
  · obtain ⟨w, rfl⟩ := h
    have hin : (cfg1.win w).isOut = false := by
      revert hr
      match w with
      | ⟨0, _⟩ => exact fun _ => rfl
      | ⟨1, _⟩ => exact fun _ => rfl
      | ⟨2, _⟩ => exact fun _ => rfl
      | ⟨3, _⟩ => exact fun _ => rfl
      | ⟨4, _⟩ => exact fun _ => rfl
      | ⟨5, _⟩ => exact fun _ => rfl
      | ⟨6, _⟩ => exact fun hr => absurd rfl hr
    exact (W4_arr m ρ c w).trans (((dat1 (V3 m ρ) c).arrAt_in w hin _).trans (A_eq1 (V3 m ρ) c w))
  · exact W4_of_ne m ρ c r (fun w e => h ⟨w, e⟩)

/-- After the host operations before launch 2. -/
abbrev W5 : Dev nD → Valuation τ sig (Elt F) := fun c => StableHlo.after hostOps2 (W4 m ρ c)
/-- The same read at the TensorCore's references (what launch 2's proof data take). -/
abbrev V5 : (c : Dev nD) → (b : Ref sig .tc) → Buf (Elt F) ((c : Thread nD τ).loc b) := fun c b => W5 m ρ c b
/-- After launch 2: its arrays at what the pipeline leaves (an input as entered, the output at its write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- The host operations before launch 2 leave a buffer they do not write as it was. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
/-- Launch 2 leaves every buffer but its output as it was: one that is none of its arrays bypasses it, and an input
    array's write-backs fold to the array as entered. -/
theorem W6_keep (c : Dev nD) (r : Ref sig .tc) (hr : r ≠ main_v36) :
    W6 m ρ c (Proc.devRef .tc r) = W5 m ρ c (Proc.devRef .tc r) := by
  by_cases h : ∃ w, Pipeline.arrRef spec2 w = r
  · obtain ⟨w, rfl⟩ := h
    have hin : (cfg2.win w).isOut = false := by
      revert hr
      match w with
      | ⟨0, _⟩ => exact fun _ => rfl
      | ⟨1, _⟩ => exact fun _ => rfl
      | ⟨2, _⟩ => exact fun _ => rfl
      | ⟨3, _⟩ => exact fun _ => rfl
      | ⟨4, _⟩ => exact fun _ => rfl
      | ⟨5, _⟩ => exact fun _ => rfl
      | ⟨6, _⟩ => exact fun hr => absurd rfl hr
    exact (W6_arr m ρ c w).trans (((dat2 (V5 m ρ) c).arrAt_in w hin _).trans (A_eq2 (V5 m ρ) c w))
  · exact W6_of_ne m ρ c r (fun w e => h ⟨w, e⟩)

/-- After the host operations before launch 3. -/
abbrev W7 : Dev nD → Valuation τ sig (Elt F) := fun c => StableHlo.after hostOps3 (W6 m ρ c)
/-- The same read at the TensorCore's references (what launch 3's proof data take). -/
abbrev V7 : (c : Dev nD) → (b : Ref sig .tc) → Buf (Elt F) ((c : Thread nD τ).loc b) := fun c b => W7 m ρ c b
/-- After launch 3: its arrays at what the pipeline leaves (an input as entered, the output at its write-backs folded),
    every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- The host operations before launch 3 leave a buffer they do not write as it was. -/
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h
/-- Launch 3 leaves every buffer but its output as it was: one that is none of its arrays bypasses it, and an input
    array's write-backs fold to the array as entered. -/
theorem W8_keep (c : Dev nD) (r : Ref sig .tc) (hr : r ≠ main_v50) :
    W8 m ρ c (Proc.devRef .tc r) = W7 m ρ c (Proc.devRef .tc r) := by
  by_cases h : ∃ w, Pipeline.arrRef spec3 w = r
  · obtain ⟨w, rfl⟩ := h
    have hin : (cfg3.win w).isOut = false := by
      revert hr
      match w with
      | ⟨0, _⟩ => exact fun _ => rfl
      | ⟨1, _⟩ => exact fun _ => rfl
      | ⟨2, _⟩ => exact fun _ => rfl
      | ⟨3, _⟩ => exact fun _ => rfl
      | ⟨4, _⟩ => exact fun _ => rfl
      | ⟨5, _⟩ => exact fun _ => rfl
      | ⟨6, _⟩ => exact fun hr => absurd rfl hr
    exact (W8_arr m ρ c w).trans (((dat3 (V7 m ρ) c).arrAt_in w hin _).trans (A_eq3 (V7 m ρ) c w))
  · exact W8_of_ne m ρ c r (fun w e => h ⟨w, e⟩)

/-! ## Every argument ends as launched -/

/-- A buffer no host operation writes and no launch has as its output reaches the end as launched. -/
theorem end_keep (c : Dev nD) (r : Ref sig .tc) (h0 : r ∉ hostOps0_W) (h1 : r ∉ hostOps1_W) (h2 : r ∉ hostOps2_W) (h3 : r ∉ hostOps3_W)
    (o0 : r ≠ main_v9) (o1 : r ≠ main_v22) (o2 : r ≠ main_v36) (o3 : r ≠ main_v50) :
    W8 m ρ c (Proc.devRef .tc r) = m ((c : Thread nD τ).loc r) :=
  (W8_keep m ρ c r o3).trans <| (W7_keep m ρ c r h3).trans <| (W6_keep m ρ c r o2).trans <| (W5_keep m ρ c r h2).trans <|
    (W4_keep m ρ c r o1).trans <| (W3_keep m ρ c r h1).trans <| (W2_keep m ρ c r o0).trans <| (W1_keep m ρ c r h0).trans rfl

/-- The result buffer ends at the last launch's folded write-backs. -/
theorem W8_out (c : Dev nD) : W8 m ρ c (Proc.devRef .tc main_v50) = (dat3 (V7 m ρ) c).arrAt 6 cfg3.N :=
  W8_arr m ρ c 6

/-! ## The proof data family and the thread state -/

/-- No pipeline has a prefetched table. -/
abbrev adm : (p : Fin 4) → (pcfgs (F := F) p).Adm := fun p => (cfgs p).toPCfg_adm
/-- Every pipeline's proof data, each at its launch's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A stretch of host operations as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W8 m ρ c) ∗ ∃ r, prngReg c r)

/-! ## The launches as segments -/

set_option backward.isDefEq.respectTransparency.types false in
/-- Launch 0 over the thread state: entered with every unscoped buffer at `W1`, left with them at `W2`. Its arrays
    are split out of the unscoped buffers on entry and put back at their final contents on exit; the generator
    register goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `W3`, left with them at `W4`. Its arrays
    are split out of the unscoped buffers on entry and put back at their final contents on exit; the generator
    register goes into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every unscoped buffer at `W5`, left with them at `W6`. Its arrays
    are split out of the unscoped buffers on entry and put back at their final contents on exit; the generator
    register goes into the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 over the thread state: entered with every unscoped buffer at `W7`, left with them at `W8`. Its arrays
    are split out of the unscoped buffers on entry and put back at their final contents on exit; the generator
    register goes into the pipeline's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

set_option backward.isDefEq.respectTransparency.types false in
/-- Every weakly fair execution of @main from memory `m` with zero counters terminates, nothing faulting, and every
    final memory holds every unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-! ## What the claims read off the run -/

/-- The run with the result buffer at the last launch's folded write-backs and every argument's buffer as launched. -/
theorem run_value : θ_run defs (onTc (τ := τ) (main (F := F))) ⟨m, fun _ => 0, ρ⟩ (fun r => ∀ c : Dev nD,
      r.2.mem ((c.tc : Thread nD τ).loc main_v50) = (dat3 (V7 m ρ) c).arrAt 6 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v50 (by decide))).trans (W8_out m ρ c),
     (h c _ (mem_uc main_arg0 (by decide))).trans (end_keep m ρ c main_arg0 (by decide) (by decide) (by decide) (by decide) (by decide) (by decide) (by decide) (by decide)),
     (h c _ (mem_uc main_arg1 (by decide))).trans (end_keep m ρ c main_arg1 (by decide) (by decide) (by decide) (by decide) (by decide) (by decide) (by decide) (by decide)),
     (h c _ (mem_uc main_arg2 (by decide))).trans (end_keep m ρ c main_arg2 (by decide) (by decide) (by decide) (by decide) (by decide) (by decide) (by decide) (by decide)),
     (h c _ (mem_uc main_arg3 (by decide))).trans (end_keep m ρ c main_arg3 (by decide) (by decide) (by decide) (by decide) (by decide) (by decide) (by decide) (by decide)),
     (h c _ (mem_uc main_arg4 (by decide))).trans (end_keep m ρ c main_arg4 (by decide) (by decide) (by decide) (by decide) (by decide) (by decide) (by decide) (by decide)),
     (h c _ (mem_uc main_arg5 (by decide))).trans (end_keep m ρ c main_arg5 (by decide) (by decide) (by decide) (by decide) (by decide) (by decide) (by decide) (by decide)),
     (h c _ (mem_uc main_arg6 (by decide))).trans (end_keep m ρ c main_arg6 (by decide) (by decide) (by decide) (by decide) (by decide) (by decide) (by decide) (by decide)),
     (h c _ (mem_uc main_arg7 (by decide))).trans (end_keep m ρ c main_arg7 (by decide) (by decide) (by decide) (by decide) (by decide) (by decide) (by decide) (by decide)),
     (h c _ (mem_uc main_arg8 (by decide))).trans (end_keep m ρ c main_arg8 (by decide) (by decide) (by decide) (by decide) (by decide) (by decide) (by decide) (by decide)),
     (h c _ (mem_uc main_arg9 (by decide))).trans (end_keep m ρ c main_arg9 (by decide) (by decide) (by decide) (by decide) (by decide) (by decide) (by decide) (by decide)),
     (h c _ (mem_uc main_arg10 (by decide))).trans (end_keep m ρ c main_arg10 (by decide) (by decide) (by decide) (by decide) (by decide) (by decide) (by decide) (by decide)),
     (h c _ (mem_uc main_arg11 (by decide))).trans (end_keep m ρ c main_arg11 (by decide) (by decide) (by decide) (by decide) (by decide) (by decide) (by decide) (by decide)),
     (h c _ (mem_uc main_arg12 (by decide))).trans (end_keep m ρ c main_arg12 (by decide) (by decide) (by decide) (by decide) (by decide) (by decide) (by decide) (by decide))⟩)
    (run_all m ρ)

/-- The frame: the run with every argument's buffer as launched. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => (h c).2) (run_value m ρ)

end Cert.KernelIdeal.Run

end
-- ==== Proof.Spec.lean ====
/-
  What the program computes, entry by entry, on the extended reals.

  The dense projection: for a row `p` and a column `q`
      dense x W b (p, q) = max (∑ₖ x[p, k] · W[k, q] + b[0, q], 0).
  The mean-aggregation layer: with `agg` the neighbours' summed features, `cnt` their number (kept as a column),
  `feat` the node's own features,
      layer agg cnt feat Wl bl Wr (p, q)
        = max ((∑ₖ (agg[p, k] / max (cnt[p, 0], 1)) · Wl[k, q] + bl[0, q]) + ∑ₖ feat[p, k] · Wr[k, q], 0).
  The sums are finite sums in the extended reals, in no particular order; the quotient is the extended reals'
  division; `0` and `1` are the values of the words `0x00000000` and `0x3F800000`, kept as those words because both
  programs spell them so. A bias is kept as a one-row array and a count as a one-column array, which is how the
  tiled program holds them.
-/
import Idealize.ShloMosaic.PureOps.Ideal
import Idealize.ShloMosaic.Lib.ValueIdx

noncomputable section

open scoped BigOperators

namespace Cert.Spec

open Idealize.ShloMosaic Idealize.ShloMosaic.ValueIdx

/-- The value of the word for `0.0`. -/
abbrev zero : EReal := Ideal.ofBits .f32 0x00000000#32
/-- The value of the word for `1.0`. -/
abbrev one : EReal := Ideal.ofBits .f32 0x3F800000#32

/-- `relu(x · W + b)` at row `p`, column `q`. -/
def dense {N Fi Fo : Nat} (x : (⟨2, ![N, Fi]⟩ : Shape).Idx → EReal) (W : (⟨2, ![Fi, Fo]⟩ : Shape).Idx → EReal)
    (b : (⟨2, ![1, Fo]⟩ : Shape).Idx → EReal) (p : Fin N) (q : Fin Fo) : EReal :=
  max ((∑ k : Fin Fi, x (ix2 p k) * W (ix2 k q)) + b (ix2 0 q)) zero

/-- The same as a whole array. -/
def denseA {N Fi Fo : Nat} (x : (⟨2, ![N, Fi]⟩ : Shape).Idx → EReal) (W : (⟨2, ![Fi, Fo]⟩ : Shape).Idx → EReal)
    (b : (⟨2, ![1, Fo]⟩ : Shape).Idx → EReal) : (⟨2, ![N, Fo]⟩ : Shape).Idx → EReal :=
  fun j => dense x W b (j 0) (j 1)

/-- `relu((agg / max(cnt, 1)) · Wl + bl + feat · Wr)` at row `p`, column `q`. -/
def layer {N Fi Fo : Nat} (agg : (⟨2, ![N, Fi]⟩ : Shape).Idx → EReal) (cnt : (⟨2, ![N, 1]⟩ : Shape).Idx → EReal)
    (feat : (⟨2, ![N, Fi]⟩ : Shape).Idx → EReal) (Wl : (⟨2, ![Fi, Fo]⟩ : Shape).Idx → EReal)
    (bl : (⟨2, ![1, Fo]⟩ : Shape).Idx → EReal) (Wr : (⟨2, ![Fi, Fo]⟩ : Shape).Idx → EReal) (p : Fin N) (q : Fin Fo) : EReal :=
  max (((∑ k : Fin Fi, Ideal.div (agg (ix2 p k)) (max (cnt (ix2 p 0)) one) * Wl (ix2 k q)) + bl (ix2 0 q))
      + ∑ k : Fin Fi, feat (ix2 p k) * Wr (ix2 k q)) zero

/-- The same as a whole array. -/
def layerA {N Fi Fo : Nat} (agg : (⟨2, ![N, Fi]⟩ : Shape).Idx → EReal) (cnt : (⟨2, ![N, 1]⟩ : Shape).Idx → EReal)
    (feat : (⟨2, ![N, Fi]⟩ : Shape).Idx → EReal) (Wl : (⟨2, ![Fi, Fo]⟩ : Shape).Idx → EReal)
    (bl : (⟨2, ![1, Fo]⟩ : Shape).Idx → EReal) (Wr : (⟨2, ![Fi, Fo]⟩ : Shape).Idx → EReal) : (⟨2, ![N, Fo]⟩ : Shape).Idx → EReal :=
  fun j => layer agg cnt feat Wl bl Wr (j 0) (j 1)

end Cert.Spec

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.KI.Val0.lean ====
/-
  What the first launch leaves in its output array, at the ideal instance: the dense projection
  `relu(x · Wp + bp)` of the arrays it was entered with, entry by entry.

  Block `t` of the output is the body's payload of block `t` of `x` (rows 2000 t … 2000 t + 1999), the whole weight
  and the whole bias row; at row `p` of the block and column `q` the payload is
  `max (∑ₖ x[2000 t + p, k] · W[k, q] + b[0, q], 0)`: the accelerator's product into a zero accumulator is the plain
  sum over the contracted axis, the change of float format is the identity, and the bias row is broadcast along the
  rows. The 25 blocks cover the 50000 rows, each row in block `row / 2000`.
-/
import proofs.«102054_j21869973471634_1_alg».proof.Proof.KI.Reg0
import proofs.«102054_j21869973471634_1_alg».proof.Proof.Spec
import proofs.«102054_j21869973471634_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.GenP Cert.KernelIdeal.Reg
open Idealize.ShloMosaic Idealize.ShloMosaic.TcCoe Idealize.ShloMosaic.ValueIdx
open Idealize.SL Idealize.SL.Sem
open Idealize.ShloMosaic.Pipeline (Dat Cfg Window)

-- the TensorCore's buffer contents when the region is entered, at the ideal instance
variable (V : (c : Dev nD) → (b : Ref sig .tc) → Buf (Elt Ideal) ((c : Thread nD τ).loc b))

/-! ## The body's payload, entry by entry -/

/-- The printed dimension numbers of the body's product are those of the plain matrix product: the left operand's
    axis 1 contracted with the right operand's axis 0, no batch axis. -/
theorem dot0_eq : dot_S2000x64_S64x64_S2000x64_1_0_0_1_n_n
    = Dot2.mmDims 2000 64 64 dot_S2000x64_S64x64_S2000x64_1_0_0_1_n_n_wf := rfl

/-- The payload of a block `x` of 2000 rows, the weight `W` and the bias row `b`, at row `p` and column `q`:
    `max (∑ₖ x[p, k] · W[k, q] + b[0, q], 0)`. The product into the zero accumulator is the sum over the contracted
    axis, the two changes of float format are the identity on the extended reals, the shape cast of the bias row to
    its own shape is the identity and its broadcast along the rows reads the one row. -/
theorem pay0_apply (x : Vec Ideal S2000x64 .f32) (W : Vec Ideal S64x64 .f32) (b : Vec Ideal S1x64 .f32)
    (p : Fin 2000) (q : Fin 64) :
    k0_pay1 x W b (ix2 p q)
      = max ((∑ k : Fin 64, x (ix2 p k) * W (ix2 k q)) + b (ix2 0 q)) Cert.Spec.zero := by
  unfold k0_pay1
  rw [maximumf_apply, addf_apply, broadcast_apply, shapeCast_self, broadcastTo_1b_ab_apply, dot0_eq]
  have hmm : matmul (F := Ideal) (Dot2.mmDims 2000 64 64 dot_S2000x64_S64x64_S2000x64_1_0_0_1_n_n_wf) none
      (truncf .bf16 x bitsLt_bf16_f32) (truncf .bf16 W bitsLt_bf16_f32) (constant S2000x64 .f32 0x00000000#32) (ix2 p q)
      = ∑ k : Fin 64, x (ix2 p k) * W (ix2 k q) :=
    Dot2.matmul_zero_mm_apply _ none _ _ p q
  rw [hmm]
  rfl

/-- So the payload of a block whose row `p` is row `r` of an array `X` is, at `(p, q)`, the dense projection of
    `X` at `(r, q)`: the projection of a row reads that row only. -/
theorem pay0_rows (X : S50000x64.Idx → EReal) (x : Vec Ideal S2000x64 .f32) (W : Vec Ideal S64x64 .f32)
    (b : Vec Ideal S1x64 .f32) (p : Fin 2000) (q : Fin 64) (r : Fin 50000)
    (hx : ∀ k : Fin 64, x (ix2 p k) = X (ix2 r k)) :
    k0_pay1 x W b (ix2 p q) = Cert.Spec.denseA (N := 50000) (Fi := 64) (Fo := 64) X W b (ix2 r q) := by
  rw [pay0_apply]
  show _ = Cert.Spec.dense X W b r q
  unfold Cert.Spec.dense
  simp only [hx]

/-! ## The input blocks, as parts of the arrays -/

theorem hz0 : (![0, 0] : Fin 2 → Nat) = fun _ => 0 :=
  funext fun a => match a with | ⟨0, _⟩ => rfl | ⟨1, _⟩ => rfl

/-- The block indices of the four windows at point `t`, decided over the 25 points: `x` and the output are at block
    `(t, 0)`, the weight and the bias row at block `(0, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the block of `x` at point `t` is row `2000 t + p` of `x`. -/
theorem xblk0_apply (c : Dev nD) (t : Fin cfg0.N) (p : Fin 2000) (k : Fin 64) (r : Fin 50000)
    (hr : r.val = t.val * 2000 + p.val) :
    (iblk0 V c 0 t : Vec Ideal S2000x64 .f32) (ix2 p k) = (V c main_arg0 : S50000x64.Idx → EReal) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 64 + 1 * k.val = k.val; rw [e1]; omega

/-- The weight's block at any point is the whole weight. -/
theorem wblk0_eq (c : Dev nD) (t : Fin cfg0.N) :
    (iblk0 V c 1 t : Vec Ideal S64x64 .f32) = (V c main_arg2 : S64x64.Idx → EReal) := by
  obtain ⟨-, -, e0, e1, -⟩ := idx_facts0 t
  funext j
  unfold iblk0
  rw [View.read_apply]
  show V c main_arg2 _ = V c main_arg2 _
  congr 1
  funext a
  apply Fin.ext
  match a with
  | ⟨0, _⟩ => show win0_1.index t (0 : Fin 2) * 64 + 1 * (j 0).val = (j 0).val; rw [e0]; omega
  | ⟨1, _⟩ => show win0_1.index t (1 : Fin 2) * 64 + 1 * (j 1).val = (j 1).val; rw [e1]; omega

/-- The bias row's block at any point is the whole row. -/
theorem bblk0_eq (c : Dev nD) (t : Fin cfg0.N) :
    (iblk0 V c 2 t : Vec Ideal S1x64 .f32) = (V c main_v8 : S1x64.Idx → EReal) := by
  obtain ⟨-, -, -, -, e0, e1, -⟩ := idx_facts0 t
  funext j
  unfold iblk0
  rw [View.read_apply]
  show V c main_v8 _ = V c main_v8 _
  congr 1
  funext a
  apply Fin.ext
  match a with
  | ⟨0, _⟩ => show win0_2.index t (0 : Fin 2) * 1 + 1 * (j 0).val = (j 0).val; rw [e0]; omega
  | ⟨1, _⟩ => show win0_2.index t (1 : Fin 2) * 64 + 1 * (j 1).val = (j 1).val; rw [e1]; omega

/-! ## From the blocks to the array -/

/-- What point `t` writes back is block `t` of the dense projection of the arrays the launch was entered with. -/
theorem flushed0_eq (c : Dev nD) (t : Fin cfg0.N) :
    (dat0 V c).flushed 3 t = ((cfg0.win 3).blk t).view.read (Elt Ideal)
      (Cert.Spec.denseA (N := 50000) (Fi := 64) (Fo := 64) (V c main_arg0) (V c main_arg2) (V c main_v8)) := by
  show (cfg0.win 3).cut (grid0.coords t) ((dat0 V c).after 3 t) = _
  rw [after0_3]
  unfold out0_3
  rw [View.canon_unit_zero hz0]
  simp only [View.ld_unit_zero (S := S2000x64) hz0, View.ld_unit_zero (S := S64x64) hz0,
    View.ld_unit_zero (S := S1x64) hz0]
  rw [wblk0_eq, bblk0_eq]
  funext j
  obtain ⟨p, q, rfl⟩ : ∃ (p : Fin 2000) (q : Fin 64), j = ix2 p q := ⟨j 0, j 1, eq_ix2 j⟩
  have ht : t.val < 25 := t.isLt
  obtain ⟨-, -, -, -, -, -, e0, e1⟩ := idx_facts0 t
  refine (pay0_rows (V c main_arg0) _ _ _ p q ⟨t.val * 2000 + p.val, by omega⟩
    (fun k => xblk0_apply V c t p k _ rfl)).trans ?_
  rw [View.read_apply]
  show Cert.Spec.denseA (N := 50000) (Fi := 64) (Fo := 64) (V c main_arg0) (V c main_arg2) (V c main_v8) _
    = Cert.Spec.denseA (N := 50000) (Fi := 64) (Fo := 64) (V c main_arg0) (V c main_arg2) (V c main_v8) _
  congr 1
  funext a
  apply Fin.ext
  match a with
  | ⟨0, _⟩ => show t.val * 2000 + p.val = win0_3.index t (0 : Fin 2) * 2000 + 1 * p.val; rw [e0]; omega
  | ⟨1, _⟩ => show q.val = win0_3.index t (1 : Fin 2) * 64 + 1 * q.val; rw [e1]; omega

/-- An index of the output array is in point `t`'s block iff each coordinate is in the block's range on its axis. -/
theorem mem_blk0 (t : Fin cfg0.N) (i : S50000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v9).slice (win0_3.rect t)).set ↔ _
  rw [View.set_slice_whole, Rect.mem_set_unit]
  exact Iff.rfl

/-- Every index of the output array is in the block of the point its row falls in: row `r` in block `r / 2000`. -/
theorem cover0 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ : ∃ t : Fin cfg0.N, t.val = (i 0).val / 2000 :=
    ⟨⟨(i 0).val / 2000, by show _ < 25; omega⟩, rfl⟩
  obtain ⟨-, -, -, -, -, -, e0, e1⟩ := idx_facts0 t
  refine ⟨t, flush0_3 t, ?_⟩
  rw [mem_blk0]
  intro a
  match a with
  | ⟨0, _⟩ =>
    show win0_3.index t (0 : Fin 2) * 2000 ≤ (i 0).val ∧ (i 0).val < win0_3.index t (0 : Fin 2) * 2000 + 2000
    rw [e0, ht]; omega
  | ⟨1, _⟩ =>
    show win0_3.index t (1 : Fin 2) * 64 ≤ (i 1).val ∧ (i 1).val < win0_3.index t (1 : Fin 2) * 64 + 64
    rw [e1]; omega

/-- The first launch's output array after the run is the dense projection of its input arrays. -/
theorem final0 (c : Dev nD) :
    (dat0 V c).arrAt 3 cfg0.N
      = Cert.Spec.denseA (N := 50000) (Fi := 64) (Fo := 64) (V c main_arg0) (V c main_arg2) (V c main_v8) :=
  (dat0 V c).arrAt_eq_of_cover 3 _ (fun t _ => flushed0_eq V c t) cover0

end Cert.KernelIdeal.Val

end
-- ==== Proof.KI.Val1.lean ====
/-
  What the second launch (the first mean-aggregation layer) leaves in its output array, at the ideal instance:
  the layer `relu((agg / max(cnt, 1)) · Wl + bl + feat · Wr)` of the arrays it was entered with, entry by entry.
  Here the features are 64 wide, the two weights are [64, 64], the bias is kept as a row [1, 64] and the output
  is 64 wide.

  Block `t` of the output is the body's payload of block `t` (rows 2000 t … 2000 t + 1999) of `agg`, `cnt` and
  `feat`, the whole weights and the whole bias row; at row `p` of the block and column `q` the payload is
  `max ((∑ₖ (agg[r, k] / max (cnt[r, 0], 1)) · Wl[k, q] + bl[0, q]) + ∑ₖ feat[r, k] · Wr[k, q], 0)` with
  `r = 2000 t + p`: each of the accelerator's two products into a zero accumulator is the plain sum over the
  contracted axis, the changes of float format are the identity, the count column is broadcast along the columns
  and the bias row along the rows. The 25 blocks cover the 50000 rows, each row in block `row / 2000`.
-/
import proofs.«102054_j21869973471634_1_alg».proof.Proof.KI.Reg1
import proofs.«102054_j21869973471634_1_alg».proof.Proof.Spec
import proofs.«102054_j21869973471634_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.GenP Cert.KernelIdeal.Reg
open Idealize.ShloMosaic Idealize.ShloMosaic.TcCoe Idealize.ShloMosaic.ValueIdx
open Idealize.SL Idealize.SL.Sem
open Idealize.ShloMosaic.Pipeline (Dat Cfg Window)

-- the TensorCore's buffer contents when the region is entered, at the ideal instance
variable (V : (c : Dev nD) → (b : Ref sig .tc) → Buf (Elt Ideal) ((c : Thread nD τ).loc b))

/-! ## The body's payload at an index -/

/-- The zero offsets of a whole-buffer rectangle, as a constant function. -/
theorem hz1 : (![0, 0] : Fin 2 → Nat) = fun _ => 0 := funext fun a => by fin_cases a <;> rfl

/-- A column `[a, 1]` broadcast to `[a, b]` reads, at `(p, c)`, the operand's row `p` at its one column. -/
theorem broadcastTo_a1_ab_apply1 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The accelerator's product of a `[2000, 64]` block by a `[64, 64]` weight into the zero accumulator, at
    `(p, q)`: the sum over the contracted axis. -/
theorem mm1_apply (l : FVec Ideal S2000x64 .bf16) (r : FVec Ideal S64x64 .bf16) (p : Fin 2000) (q : Fin 64) :
    matmul dot_S2000x64_S64x64_S2000x64_1_0_0_1_n_n none l r (constant (F := Ideal) S2000x64 .f32 0x00000000#32) (ix2 p q)
      = ∑ k : Fin 64, l (ix2 p k) * r (ix2 k q) :=
  Dot2.matmul_zero_mm_apply (M := 2000) (K := 64) (N := 64) Facts₀.dot_S2000x64_S64x64_S2000x64_1_0_0_1_n_n_wf none l r p q

/-- The payload of six blocks (counts, summed neighbour features, node features, left weight, right weight, bias
    row), at row `p` of the block and column `q`: the layer of those blocks there. -/
theorem pay1_apply (v0 : Vec Ideal S2000x1 .f32) (v4 v9 : Vec Ideal S2000x64 .f32) (v11 v13 : Vec Ideal S64x64 .f32)
    (v17 : Vec Ideal S1x64 .f32) (p : Fin 2000) (q : Fin 64) :
    k1_pay1 v0 v4 v9 v11 v13 v17 (ix2 p q)
      = Cert.Spec.layer (N := 2000) (Fi := 64) (Fo := 64) v4 v0 v9 v11 v17 v13 p q := by
  unfold k1_pay1 Cert.Spec.layer
  simp only [maximumf_apply, addf_apply, broadcast_apply, mm1_apply, truncf_apply, divf_apply, shapeCast_self,
    broadcastTo_1b_ab_apply, broadcastTo_a1_ab_apply1]
  rfl

/-- The layer at a row reads only that row of the three row-indexed arrays: if row `p` of the blocks is row `r`
    of the arrays, the layer of the blocks at `(p, q)` is the layer of the arrays at `(r, q)`. -/
theorem layer_row1 (agg : S50000x64.Idx → EReal) (cnt : S50000x1.Idx → EReal) (feat : S50000x64.Idx → EReal)
    (Wl : S64x64.Idx → EReal) (bl : S1x64.Idx → EReal) (Wr : S64x64.Idx → EReal)
    (x0 : S2000x64.Idx → EReal) (x1 : S2000x1.Idx → EReal) (x2 : S2000x64.Idx → EReal)
    (p : Fin 2000) (q : Fin 64) (r : Fin 50000)
    (h0 : ∀ k : Fin 64, x0 (ix2 p k) = agg (ix2 r k)) (h1 : x1 (ix2 p (0 : Fin 1)) = cnt (ix2 r (0 : Fin 1)))
    (h2 : ∀ k : Fin 64, x2 (ix2 p k) = feat (ix2 r k))
    (x3 : S64x64.Idx → EReal) (x4 : S1x64.Idx → EReal) (x5 : S64x64.Idx → EReal)
    (h3 : x3 = Wl) (h4 : x4 = bl) (h5 : x5 = Wr) :
    Cert.Spec.layer (N := 2000) (Fi := 64) (Fo := 64) x0 x1 x2 x3 x4 x5 p q
      = Cert.Spec.layer (N := 50000) (Fi := 64) (Fo := 64) agg cnt feat Wl bl Wr r q := by
  subst h3 h4 h5
  unfold Cert.Spec.layer
  simp only [h0, h1, h2]

/-! ## The windows' blocks, read off the arrays -/

/-- The launch has 25 points. -/
theorem N1 : cfg1.N = 25 := by decide

/-- The printed index maps, decided over the grid: the three row-blocked inputs and the output sit at block
    `(t, 0)`, the weights and the bias row at block `(0, 0)`. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of the block of summed neighbour features at point `t` is row `2000 t + p` of the array. -/
theorem iblk1_0_apply (c : Dev nD) (t : Fin cfg1.N) (p : Fin 2000) (k : Fin 64) (r : Fin 50000)
    (hr : r.val = 2000 * t.val + p.val) :
    (iblk1 V c 0 t : S2000x64.Idx → EReal) (ix2 p k) = (V c main_v19 : S50000x64.Idx → EReal) (ix2 r k) := by
  obtain ⟨e0, e1, -⟩ := idx_facts1 t
  unfold iblk1
  rw [View.read_apply]
  show V c main_v19 _ = V c main_v19 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 64 + 1 * k.val = k.val; rw [e1]; omega

/-- Row `p` of the block of counts at point `t` is row `2000 t + p` of the count column. -/
theorem iblk1_1_apply (c : Dev nD) (t : Fin cfg1.N) (p : Fin 2000) (r : Fin 50000)
    (hr : r.val = 2000 * t.val + p.val) :
    (iblk1 V c 1 t : S2000x1.Idx → EReal) (ix2 p (0 : Fin 1)) = (V c main_v20 : S50000x1.Idx → EReal) (ix2 r (0 : Fin 1)) := by
  obtain ⟨-, -, e0, e1, -⟩ := idx_facts1 t
  unfold iblk1
  rw [View.read_apply]
  show V c main_v20 _ = V c main_v20 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 1 + 1 * 0 = 0; rw [e1]

/-- Row `p` of the block of node features at point `t` is row `2000 t + p` of the array. -/
theorem iblk1_2_apply (c : Dev nD) (t : Fin cfg1.N) (p : Fin 2000) (k : Fin 64) (r : Fin 50000)
    (hr : r.val = 2000 * t.val + p.val) :
    (iblk1 V c 2 t : S2000x64.Idx → EReal) (ix2 p k) = (V c main_arg0 : S50000x64.Idx → EReal) (ix2 r k) := by
  obtain ⟨-, -, -, -, e0, e1, -⟩ := idx_facts1 t
  unfold iblk1
  rw [View.read_apply]
  show V c main_arg0 _ = V c main_arg0 _
  congr 1
  funext a
  apply Fin.ext
  match a with
  | ⟨0, _⟩ => show win1_2.index t (0 : Fin 2) * 2000 + 1 * p.val = r.val; rw [e0, hr]; omega
  | ⟨1, _⟩ => show win1_2.index t (1 : Fin 2) * 64 + 1 * k.val = k.val; rw [e1]; omega

/-- The left weight's one block is the whole weight. -/
theorem iblk1_3_eq (c : Dev nD) (t : Fin cfg1.N) :
    (iblk1 V c 3 t : S64x64.Idx → EReal) = (V c main_arg4 : S64x64.Idx → EReal) := by
  obtain ⟨-, -, -, -, -, -, e0, e1, -⟩ := idx_facts1 t
  funext y
  unfold iblk1
  rw [View.read_apply]
  show V c main_arg4 _ = V c main_arg4 _
  congr 1
  funext a
  apply Fin.ext
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

/-- The bias row's one block is the whole row. -/
theorem iblk1_4_eq (c : Dev nD) (t : Fin cfg1.N) :
    (iblk1 V c 4 t : S1x64.Idx → EReal) = (V c main_v21 : S1x64.Idx → EReal) := by
  obtain ⟨-, -, -, -, -, -, -, -, e0, e1, -⟩ := idx_facts1 t
  funext y
  unfold iblk1
  rw [View.read_apply]
  show V c main_v21 _ = V c main_v21 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- The right weight's one block is the whole weight. -/
theorem iblk1_5_eq (c : Dev nD) (t : Fin cfg1.N) :
    (iblk1 V c 5 t : S64x64.Idx → EReal) = (V c main_arg6 : S64x64.Idx → EReal) := by
  obtain ⟨-, -, -, -, -, -, -, -, -, -, e0, e1, -⟩ := idx_facts1 t
  funext y
  unfold iblk1
  rw [View.read_apply]
  show V c main_arg6 _ = V c main_arg6 _
  congr 1
  funext a
  apply Fin.ext
  match a with
  | ⟨0, _⟩ => show win1_5.index t (0 : Fin 2) * 64 + 1 * (y 0).val = (y 0).val; rw [e0]; omega
  | ⟨1, _⟩ => show win1_5.index t (1 : Fin 2) * 64 + 1 * (y 1).val = (y 1).val; rw [e1]; omega

/-! ## From the blocks to the array -/

/-- What point `t` writes back is block `t` of the layer of the arrays as the launch finds them. -/
theorem flushed1_eq (c : Dev nD) (t : Fin cfg1.N) :
    (dat1 V c).flushed 6 t = ((cfg1.win 6).blk t).view.read (Elt Ideal)
      (Cert.Spec.layerA (N := 50000) (Fi := 64) (Fo := 64) (V c main_v19) (V c main_v20) (V c main_arg0) (V c main_arg4) (V c main_v21) (V c main_arg6)) := by
  show (cfg1.win 6).cut (grid1.coords t) ((dat1 V c).after 6 t) = _
  rw [after1_6]
  unfold out1_6
  rw [View.canon_unit_zero hz1]
  simp only [View.ld_unit_zero (S := S2000x64) hz1, View.ld_unit_zero (S := S2000x1) hz1, View.ld_unit_zero (S := S64x64) hz1, View.ld_unit_zero (S := S1x64) hz1]
  funext j
  obtain ⟨p, q, rfl⟩ : ∃ (p : Fin 2000) (q : Fin 64), j = ix2 p q := ⟨j 0, j 1, eq_ix2 j⟩
  obtain ⟨-, -, -, -, -, -, -, -, -, -, -, -, e0, e1⟩ := idx_facts1 t
  have ht : t.val < 25 := lt_of_lt_of_eq t.isLt N1
  have hp : p.val < 2000 := p.isLt
  have hx : (win1 6).xinj (grid1.coords t) (ix2 p q) = (ix2 p q : S2000x64.Idx) :=
    funext fun a => Fin.ext (by match a with | ⟨0, _⟩ => rfl | ⟨1, _⟩ => rfl)
  have hr0 : (((cfg1.win 6).blk t).view.emb (ix2 p q)) 0 = (⟨2000 * t.val + p.val, by omega⟩ : Fin 50000) :=
    Fin.ext (by show win1_6.index t (0 : Fin 2) * 2000 + 1 * p.val = 2000 * t.val + p.val; rw [e0]; omega)
  have hr1 : (((cfg1.win 6).blk t).view.emb (ix2 p q)) 1 = q :=
    Fin.ext (by show win1_6.index t (1 : Fin 2) * 64 + 1 * q.val = q.val; rw [e1]; omega)
  refine (congrArg (k1_pay1 (iblk1 V c 1 t) (iblk1 V c 0 t) (iblk1 V c 2 t) (iblk1 V c 3 t) (iblk1 V c 5 t) (iblk1 V c 4 t)) hx).trans ?_
  refine (pay1_apply _ _ _ _ _ _ p q).trans ?_
  refine (layer_row1 (V c main_v19) (V c main_v20) (V c main_arg0) (V c main_arg4) (V c main_v21) (V c main_arg6) _ _ _ p q
    ⟨2000 * t.val + p.val, by omega⟩ (fun k => iblk1_0_apply V c t p k _ rfl) (iblk1_1_apply V c t p _ rfl)
    (fun k => iblk1_2_apply V c t p k _ rfl) _ _ _ (iblk1_3_eq V c t) (iblk1_4_eq V c t) (iblk1_5_eq V c t)).trans ?_
  show _ = Cert.Spec.layer _ _ _ _ _ _ ((((cfg1.win 6).blk t).view.emb (ix2 p q)) 0) ((((cfg1.win 6).blk t).view.emb (ix2 p q)) 1)
  rw [hr0, hr1]
  rfl

/-- An index of the output array is in point `t`'s block iff each coordinate is in the block's range on its axis. -/
theorem mem_blk1 (t : Fin cfg1.N) (i : S50000x64.Idx) :
    i ∈ ((cfg1.win 6).blk t).view.set ↔ ∀ a : Fin 2, win1_6.index t a * S2000x64.size a ≤ (i a).val
      ∧ (i a).val < win1_6.index t a * S2000x64.size a + S2000x64.size a := by
  show i ∈ ((View.whole main_v22).slice (win1_6.rect t)).set ↔ _
  rw [View.set_slice_whole, Rect.mem_set_unit]
  exact Iff.rfl

/-- Every index of the output array is in the block of the point its row divided by 2000 names, and that point
    writes its block back. -/
theorem cover1 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : (i 0).val / 2000 < cfg1.N := by rw [N1]; omega
  obtain ⟨-, -, -, -, -, -, -, -, -, -, -, -, e0, e1⟩ := idx_facts1 ⟨(i 0).val / 2000, hN⟩
  refine ⟨⟨(i 0).val / 2000, hN⟩, flush1_6 _, ?_⟩
  rw [mem_blk1]
  intro a
  match a with
  | ⟨0, _⟩ =>
    show win1_6.index ⟨(i 0).val / 2000, hN⟩ (0 : Fin 2) * 2000 ≤ (i 0).val
      ∧ (i 0).val < win1_6.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, hN⟩ (1 : Fin 2) * 64 ≤ (i 1).val
      ∧ (i 1).val < win1_6.index ⟨(i 0).val / 2000, hN⟩ (1 : Fin 2) * 64 + 64
    rw [e1]; omega

/-- The first mean-aggregation launch's output array after the run is the layer of its input arrays. -/
theorem final1 (c : Dev nD) :
    (dat1 V c).arrAt 6 cfg1.N
      = Cert.Spec.layerA (N := 50000) (Fi := 64) (Fo := 64) (V c main_v19) (V c main_v20) (V c main_arg0) (V c main_arg4) (V c main_v21) (V c main_arg6) :=
  (dat1 V c).arrAt_eq_of_cover 6
    (Cert.Spec.layerA (N := 50000) (Fi := 64) (Fo := 64) (V c main_v19) (V c main_v20) (V c main_arg0) (V c main_arg4) (V c main_v21) (V c main_arg6))
    (fun t _ => flushed1_eq V c t) cover1

end Cert.KernelIdeal.Val

end
-- ==== Proof.KI.Val2.lean ====
/-
  What the second mean-aggregation launch leaves in its output array, at the ideal instance: the layer
  `relu((agg / max(cnt, 1)) · Wl + bl + feat · Wr)` of the arrays it was entered with, entry by entry, with
  128 input features and 128 output features.

  Block `t` of the output is the body's payload of block `t` (rows 2000 t … 2000 t + 1999) of `agg`, `cnt` and
  `feat`, the whole 128×128 weights and the whole bias row; at row `p` of the block and column `q` the payload is
  `max ((∑ₖ (agg[r, k] / max (cnt[r, 0], 1)) · Wl[k, q] + bl[0, q]) + ∑ₖ feat[r, k] · Wr[k, q], 0)` with
  `r = 2000 t + p`: each of the accelerator's two products into a zero accumulator is the plain sum over the
  contracted axis, the changes of float format are the identity, the count column is broadcast along the columns
  and the bias row along the rows. The 25 blocks cover the 50000 rows, each row in block `row / 2000`.
-/
import proofs.«102054_j21869973471634_1_alg».proof.Proof.KI.Reg2
import proofs.«102054_j21869973471634_1_alg».proof.Proof.Spec
import proofs.«102054_j21869973471634_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.GenP Cert.KernelIdeal.Reg
open Idealize.ShloMosaic Idealize.ShloMosaic.TcCoe Idealize.ShloMosaic.ValueIdx
open Idealize.SL Idealize.SL.Sem
open Idealize.ShloMosaic.Pipeline (Dat Cfg Window)

/-! ## Broadcasts that keep a unit axis, read at an index -/

/-- A column `[n, 1]` broadcast along the columns to `[n, m]` reads, at `(p, q)`, the column's entry of row `p`. -/
theorem broadcastTo_col_apply2 {α : Type} {n m : Nat} (x : (⟨2, ![n, 1]⟩ : Shape).Idx → α)
    (h : (⟨2, ![n, 1]⟩ : Shape).Broadcasts ⟨2, ![n, m]⟩) (p : Fin n) (q : Fin m) :
    broadcastTo ⟨2, ![n, m]⟩ x h (ix2 p q) = x (ix2 p 0) := by
  refine broadcastTo_apply x h (ix2 p q) (ix2 p 0) fun a => ?_
  match a with
  | ⟨0, _⟩ =>
    show p.val = if n = 1 then 0 else p.val
    by_cases h1 : n = 1
    · rw [if_pos h1]; have := p.isLt; omega
    · rw [if_neg h1]
  | ⟨1, _⟩ => rfl

/-- A row `[1, m]` broadcast along the rows to `[n, m]` reads, at `(p, q)`, the row's entry of column `q`. -/
theorem broadcastTo_row_apply2 {α : Type} {n m : Nat} (x : (⟨2, ![1, m]⟩ : Shape).Idx → α)
    (h : (⟨2, ![1, m]⟩ : Shape).Broadcasts ⟨2, ![n, m]⟩) (p : Fin n) (q : Fin m) :
    broadcastTo ⟨2, ![n, m]⟩ x h (ix2 p q) = x (ix2 0 q) := by
  refine broadcastTo_apply x h (ix2 p q) (ix2 0 q) fun a => ?_
  match a with
  | ⟨0, _⟩ => rfl
  | ⟨1, _⟩ =>
    show q.val = if m = 1 then 0 else q.val
    by_cases h1 : m = 1
    · rw [if_pos h1]; have := q.isLt; omega
    · rw [if_neg h1]

/-! ## The body's payload at an index -/

/-- The accelerator's product of a `[2000, 128]` block by a `[128, 128]` weight into the zero accumulator, at
    `(p, q)`: the plain sum over the contracted axis. -/
theorem mm2_apply {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) :=
  Dot2.matmul_zero_mm_apply dot_S2000x128_S128x128_S2000x128_1_0_0_1_n_n_wf none l r p q

/-- The payload at row `p`, column `q` of the block: the layer's formula over the six loaded values. -/
theorem pay2_apply (v0 : Vec Ideal S2000x1 .f32) (v4 : Vec Ideal S2000x128 .f32) (v9 : Vec Ideal S2000x128 .f32)
    (v12 : Vec Ideal S128x128 .f32) (v14 : Vec Ideal S128x128 .f32) (v18 : Vec Ideal S1x128 .f32) (p : Fin 2000) (q : Fin 128) :
    k2_pay1 (F := Ideal) v0 v4 v9 v12 v14 v18 (ix2 p q)
      = max (((∑ k : Fin 128, Ideal.div (v4 (ix2 p k)) (max (v0 (ix2 p 0)) Cert.Spec.one) * v12 (ix2 k q)) + v18 (ix2 0 q))
          + ∑ k : Fin 128, v9 (ix2 p k) * v14 (ix2 k q)) Cert.Spec.zero := by
  unfold k2_pay1
  simp only [shapeCast_self]
  rw [maximumf_apply, addf_apply, addf_apply, broadcast_apply, mm2_apply, mm2_apply, broadcastTo_row_apply2]
  simp only [truncf_apply, divf_apply, broadcastTo_col_apply2, maximumf_apply, broadcast_apply]
  rfl

/-- The payload of six blocks that are, row by row, the rows of six arrays: if row `p` of the three row blocks is
    row `r` of their arrays and the weights and the bias row are whole, the payload at `(p, q)` is the layer of
    the arrays at `(r, q)`. -/
theorem pay2_layer (A0 : S50000x128.Idx → EReal) (A1 : S50000x1.Idx → EReal) (A2 : S50000x128.Idx → EReal)
    (A3 : S128x128.Idx → EReal) (A4 : S1x128.Idx → EReal) (A5 : S128x128.Idx → EReal)
    (x0 : Vec Ideal S2000x128 .f32) (x1 : Vec Ideal S2000x1 .f32) (x2 : Vec Ideal S2000x128 .f32)
    (x3 : Vec Ideal S128x128 .f32) (x4 : Vec Ideal S1x128 .f32) (x5 : Vec Ideal S128x128 .f32)
    (r : Fin 50000) (p : Fin 2000) (q : Fin 128)
    (h0 : ∀ k : Fin 128, x0 (ix2 p k) = A0 (ix2 r k)) (h1 : x1 (ix2 p 0) = A1 (ix2 r 0))
    (h2 : ∀ k : Fin 128, x2 (ix2 p k) = A2 (ix2 r k)) (h3 : x3 = A3) (h4 : x4 = A4) (h5 : x5 = A5) :
    k2_pay1 (F := Ideal) x1 x0 x2 x3 x5 x4 (ix2 p q)
      = Cert.Spec.layer (N := 50000) (Fi := 128) (Fo := 128) A0 A1 A2 A3 A4 A5 r q := by
  rw [pay2_apply, h1, h3, h4, h5]
  unfold Cert.Spec.layer
  congr 2
  · congr 1
    exact Finset.sum_congr rfl fun k _ => by rw [h0 k]
  · exact Finset.sum_congr rfl fun k _ => by rw [h2 k]

/-! ## From the blocks to the arrays -/

-- the TensorCore's buffer contents when the region is entered, at the ideal instance
variable (V : (c : Dev nD) → (b : Ref sig .tc) → Buf (Elt Ideal) ((c : Thread nD τ).loc b))

/-- The zero offsets of the body's whole-buffer accesses, however spelt. -/
theorem hz2 : (![0, 0] : Fin 2 → Nat) = fun _ => 0 := funext fun a => by fin_cases a <;> rfl

/-- The index maps over the grid: the three row windows and the output sit at block `(t, 0)`, the weights
    and the bias row at block `(0, 0)`. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row `p` of block `t` is row `2000 t + p` of the array. -/
def row2 (t : Fin cfg2.N) (p : Fin 2000) : Fin 50000 :=
  ⟨t.val * 2000 + p.val, by have ht : t.val < 25 := t.isLt; have := p.isLt; omega⟩

/-- Block `t` of the summed neighbour features, at `(p, k)`. -/
theorem iblk2_0_apply (c : Dev nD) (t : Fin cfg2.N) (p : Fin 2000) (k : Fin 128) :
    iblk2 V c 0 t (ix2 p k) = V c main_v33 (ix2 (row2 t p) k) := by
  show V c main_v33 (((cfg2.win 0).blk t).view.emb (ix2 p k)) = V c main_v33 (ix2 (row2 t p) k)
  refine congrArg (V c main_v33) (funext fun a => Fin.ext ?_)
  obtain ⟨e00, e01, -⟩ := idx2 t
  match a with
  | ⟨0, _⟩ => show win2_0.index t (0 : Fin 2) * 2000 + 1 * p.val = t.val * 2000 + p.val; omega
  | ⟨1, _⟩ => show win2_0.index t (1 : Fin 2) * 128 + 1 * k.val = k.val; omega

/-- Block `t` of the count column, at `(p, 0)`. -/
theorem iblk2_1_apply (c : Dev nD) (t : Fin cfg2.N) (p : Fin 2000) (k : Fin 1) :
    iblk2 V c 1 t (ix2 p k) = V c main_v34 (ix2 (row2 t p) k) := by
  show V c main_v34 (((cfg2.win 1).blk t).view.emb (ix2 p k)) = V c main_v34 (ix2 (row2 t p) k)
  refine congrArg (V c main_v34) (funext fun a => Fin.ext ?_)
  obtain ⟨-, -, e10, e11, -⟩ := idx2 t
  match a with
  | ⟨0, _⟩ => show win2_1.index t (0 : Fin 2) * 2000 + 1 * p.val = t.val * 2000 + p.val; omega
  | ⟨1, _⟩ => show win2_1.index t (1 : Fin 2) * 1 + 1 * k.val = k.val; omega

/-- Block `t` of the node features, at `(p, k)`. -/
theorem iblk2_2_apply (c : Dev nD) (t : Fin cfg2.N) (p : Fin 2000) (k : Fin 128) :
    iblk2 V c 2 t (ix2 p k) = V c main_v23 (ix2 (row2 t p) k) := by
  show V c main_v23 (((cfg2.win 2).blk t).view.emb (ix2 p k)) = V c main_v23 (ix2 (row2 t p) k)
  refine congrArg (V c main_v23) (funext fun a => Fin.ext ?_)
  obtain ⟨-, -, -, -, e20, e21, -⟩ := idx2 t
  match a with
  | ⟨0, _⟩ => show win2_2.index t (0 : Fin 2) * 2000 + 1 * p.val = t.val * 2000 + p.val; omega
  | ⟨1, _⟩ => show win2_2.index t (1 : Fin 2) * 128 + 1 * k.val = k.val; omega

/-- The left weight's block is the whole weight at every point. -/
theorem iblk2_3_eq (c : Dev nD) (t : Fin cfg2.N) : iblk2 V c 3 t = V c main_arg7 := by
  funext y
  show V c main_arg7 (((cfg2.win 3).blk t).view.emb y) = V c main_arg7 y
  refine congrArg (V c main_arg7) (funext fun a => Fin.ext ?_)
  obtain ⟨-, -, -, -, -, -, e30, e31, -⟩ := idx2 t
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The bias row's block is the whole row at every point. -/
theorem iblk2_4_eq (c : Dev nD) (t : Fin cfg2.N) : iblk2 V c 4 t = V c main_v35 := by
  funext y
  show V c main_v35 (((cfg2.win 4).blk t).view.emb y) = V c main_v35 y
  refine congrArg (V c main_v35) (funext fun a => Fin.ext ?_)
  obtain ⟨-, -, -, -, -, -, -, -, e40, e41, -⟩ := idx2 t
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- The right weight's block is the whole weight at every point. -/
theorem iblk2_5_eq (c : Dev nD) (t : Fin cfg2.N) : iblk2 V c 5 t = V c main_arg9 := by
  funext y
  show V c main_arg9 (((cfg2.win 5).blk t).view.emb y) = V c main_arg9 y
  refine congrArg (V c main_arg9) (funext fun a => Fin.ext ?_)
  obtain ⟨-, -, -, -, -, -, -, -, -, -, e50, e51, -⟩ := idx2 t
  match a with
  | ⟨0, _⟩ => show win2_5.index t (0 : Fin 2) * 128 + 1 * (y 0).val = (y 0).val; omega
  | ⟨1, _⟩ => show win2_5.index t (1 : Fin 2) * 128 + 1 * (y 1).val = (y 1).val; omega

/-- Entry `(p, q)` of the output's block `t` is entry `(2000 t + p, q)` of the output array. -/
theorem emb2_6 (t : Fin cfg2.N) (p : Fin 2000) (q : Fin 128) :
    ((cfg2.win 6).blk t).view.emb (ix2 p q) = ix2 (row2 t p) q := by
  refine funext fun a => Fin.ext ?_
  obtain ⟨-, -, -, -, -, -, -, -, -, -, -, -, e60, e61⟩ := idx2 t
  match a with
  | ⟨0, _⟩ => show win2_6.index t (0 : Fin 2) * 2000 + 1 * p.val = t.val * 2000 + p.val; omega
  | ⟨1, _⟩ => show win2_6.index t (1 : Fin 2) * 128 + 1 * q.val = q.val; omega

/-- What point `t` writes back is block `t` of the layer of the arrays the launch was entered with. -/
theorem flushed2_eq (c : Dev nD) (t : Fin cfg2.N) :
    (dat2 V c).flushed 6 t = ((cfg2.win 6).blk t).view.read (Elt Ideal)
      (Cert.Spec.layerA (N := 50000) (Fi := 128) (Fo := 128) (V c main_v33) (V c main_v34) (V c main_v23) (V c main_arg7) (V c main_v35) (V c main_arg9)) := by
  show (cfg2.win 6).cut (grid2.coords t) ((dat2 V c).after 6 t) = _
  rw [after2_6]
  unfold out2_6
  rw [View.canon_unit_zero hz2]
  simp only [View.ld_unit_zero (S := S2000x128) hz2, View.ld_unit_zero (S := S2000x1) hz2, View.ld_unit_zero (S := S128x128) hz2, View.ld_unit_zero (S := S1x128) hz2]
  funext j
  obtain ⟨p, q, rfl⟩ : ∃ (p : Fin 2000) (q : Fin 128), j = ix2 p q := ⟨j 0, j 1, eq_ix2 j⟩
  refine Eq.trans (pay2_layer (V c main_v33) (V c main_v34) (V c main_v23) (V c main_arg7) (V c main_v35) (V c main_arg9)
    (iblk2 V c 0 t) (iblk2 V c 1 t) (iblk2 V c 2 t) (iblk2 V c 3 t) (iblk2 V c 4 t) (iblk2 V c 5 t) (row2 t p) p q
    (fun k => iblk2_0_apply V c t p k) (iblk2_1_apply V c t p 0) (fun k => iblk2_2_apply V c t p k)
    (iblk2_3_eq V c t) (iblk2_4_eq V c t) (iblk2_5_eq V c t)) ?_
  show _ = Cert.Spec.layerA (N := 50000) (Fi := 128) (Fo := 128) (V c main_v33) (V c main_v34) (V c main_v23) (V c main_arg7) (V c main_v35) (V c main_arg9)
    (((cfg2.win 6).blk t).view.emb (ix2 p q))
  rw [emb2_6]
  rfl

/-- An index of the output array is in point `t`'s block iff each coordinate is in the block's range on its axis. -/
theorem mem_blk2 (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v36).slice (win2_6.rect t)).set ↔ _
  rw [View.set_slice_whole, Rect.mem_set_unit]
  exact Iff.rfl

/-- The 25 blocks cover the output array: row `r` lies in block `r / 2000`. -/
theorem cover2 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have ht : (i 0).val / 2000 < 25 := by omega
  refine ⟨⟨(i 0).val / 2000, ht⟩, flush2_6 _, ?_⟩
  rw [mem_blk2]
  obtain ⟨-, -, -, -, -, -, -, -, -, -, -, -, e60, e61⟩ := idx2 ⟨(i 0).val / 2000, ht⟩
  have e60' : win2_6.index ⟨(i 0).val / 2000, ht⟩ (0 : Fin 2) = (i 0).val / 2000 := e60
  intro a
  match a with
  | ⟨0, _⟩ =>
    show win2_6.index ⟨(i 0).val / 2000, ht⟩ (0 : Fin 2) * 2000 ≤ (i 0).val ∧ (i 0).val < win2_6.index ⟨(i 0).val / 2000, ht⟩ (0 : Fin 2) * 2000 + 2000
    omega
  | ⟨1, _⟩ =>
    show win2_6.index ⟨(i 0).val / 2000, ht⟩ (1 : Fin 2) * 128 ≤ (i 1).val ∧ (i 1).val < win2_6.index ⟨(i 0).val / 2000, ht⟩ (1 : Fin 2) * 128 + 128
    omega

/-- The second layer's output array after the run is the layer of its input arrays. -/
theorem final2 (c : Dev nD) :
    (dat2 V c).arrAt 6 cfg2.N
      = Cert.Spec.layerA (N := 50000) (Fi := 128) (Fo := 128) (V c main_v33) (V c main_v34) (V c main_v23) (V c main_arg7) (V c main_v35) (V c main_arg9) :=
  (dat2 V c).arrAt_eq_of_cover 6 _ (fun t _ => flushed2_eq V c t) cover2

end Cert.KernelIdeal.Val

end
-- ==== Proof.KI.Val3.lean ====
/-
  What the last launch leaves in its output array, at the ideal instance: the mean-aggregation layer
  `relu((agg / max(cnt, 1)) · Wl + bl + feat · Wr)` of the arrays it was entered with, entry by entry.

  Block `t` of the output is the body's payload of block `t` (rows 2000 t … 2000 t + 1999) of `agg`, `cnt` and
  `feat`, the whole weights and the whole bias row; at row `p` of the block and column `q` the payload is
  `max ((∑ₖ (agg[r, k] / max (cnt[r, 0], 1)) · Wl[k, q] + bl[0, q]) + ∑ₖ feat[r, k] · Wr[k, q], 0)` with
  `r = 2000 t + p`: each of the accelerator's two products into a zero accumulator is the plain sum over the
  contracted axis, the changes of float format are the identity, the count column is broadcast along the columns
  and the bias row along the rows. The 25 blocks cover the 50000 rows, each row in block `row / 2000`.
-/
import proofs.«102054_j21869973471634_1_alg».proof.Proof.KI.Reg3
import proofs.«102054_j21869973471634_1_alg».proof.Proof.Spec
import proofs.«102054_j21869973471634_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.GenP Cert.KernelIdeal.Reg
open Idealize.ShloMosaic Idealize.ShloMosaic.TcCoe Idealize.ShloMosaic.ValueIdx
open Idealize.SL Idealize.SL.Sem
open Idealize.ShloMosaic.Pipeline (Dat Cfg Window)

/-! ## Broadcasts that keep a unit axis, read at an index -/

/-- A column `[n, 1]` broadcast along the columns to `[n, m]` reads, at `(p, q)`, the column's entry of row `p`. -/
theorem broadcastTo_col_apply3 {α : Type} {n m : Nat} (x : (⟨2, ![n, 1]⟩ : Shape).Idx → α)
    (h : (⟨2, ![n, 1]⟩ : Shape).Broadcasts ⟨2, ![n, m]⟩) (p : Fin n) (q : Fin m) :
    broadcastTo ⟨2, ![n, m]⟩ x h (ix2 p q) = x (ix2 p 0) := by
  refine broadcastTo_apply x h (ix2 p q) (ix2 p 0) fun a => ?_
  match a with
  | ⟨0, _⟩ =>
    show p.val = if n = 1 then 0 else p.val
    by_cases h1 : n = 1
    · rw [if_pos h1]; have := p.isLt; omega
    · rw [if_neg h1]
  | ⟨1, _⟩ => rfl

/-- A row `[1, m]` broadcast along the rows to `[n, m]` reads, at `(p, q)`, the row's entry of column `q`. -/
theorem broadcastTo_row_apply3 {α : Type} {n m : Nat} (x : (⟨2, ![1, m]⟩ : Shape).Idx → α)
    (h : (⟨2, ![1, m]⟩ : Shape).Broadcasts ⟨2, ![n, m]⟩) (p : Fin n) (q : Fin m) :
    broadcastTo ⟨2, ![n, m]⟩ x h (ix2 p q) = x (ix2 0 q) := by
  refine broadcastTo_apply x h (ix2 p q) (ix2 0 q) fun a => ?_
  match a with
  | ⟨0, _⟩ => rfl
  | ⟨1, _⟩ =>
    show q.val = if m = 1 then 0 else q.val
    by_cases h1 : m = 1
    · rw [if_pos h1]; have := q.isLt; omega
    · rw [if_neg h1]

/-! ## The body's payload at an index -/

/-- The accelerator's product of a `[2000, 256]` block by a `[256, 128]` weight into the zero accumulator, at
    `(p, q)`: the plain sum over the contracted axis. -/
theorem mm3_apply {φ₁ φ₂ : FTy} (l : FVec Ideal S2000x256 φ₁) (r : FVec Ideal S256x128 φ₂) (p : Fin 2000) (q : Fin 128) :
    matmul dot_S2000x256_S256x128_S2000x128_1_0_0_1_n_n none l r (constant (F := Ideal) S2000x128 .f32 0x00000000#32) (ix2 p q)
      = ∑ k : Fin 256, l (ix2 p k) * r (ix2 k q) :=
  Dot2.matmul_zero_mm_apply dot_S2000x256_S256x128_S2000x128_1_0_0_1_n_n_wf none l r p q

/-- The payload at row `p`, column `q` of the block: the layer's formula over the six loaded values. -/
theorem pay3_apply (v0 : Vec Ideal S2000x1 .f32) (v4 : Vec Ideal S2000x256 .f32) (v9 : Vec Ideal S2000x256 .f32)
    (v12 : Vec Ideal S256x128 .f32) (v14 : Vec Ideal S256x128 .f32) (v18 : Vec Ideal S1x128 .f32) (p : Fin 2000) (q : Fin 128) :
    k3_pay1 (F := Ideal) v0 v4 v9 v12 v14 v18 (ix2 p q)
      = max (((∑ k : Fin 256, Ideal.div (v4 (ix2 p k)) (max (v0 (ix2 p 0)) Cert.Spec.one) * v12 (ix2 k q)) + v18 (ix2 0 q))
          + ∑ k : Fin 256, v9 (ix2 p k) * v14 (ix2 k q)) Cert.Spec.zero := by
  unfold k3_pay1
  simp only [shapeCast_self]
  rw [maximumf_apply, addf_apply, addf_apply, broadcast_apply, mm3_apply, mm3_apply, broadcastTo_row_apply3]
  simp only [truncf_apply, divf_apply, broadcastTo_col_apply3, maximumf_apply, broadcast_apply]
  rfl

/-- The payload of six blocks that are, row by row, the rows of six arrays: if row `p` of the three row blocks is
    row `r` of their arrays and the weights and the bias row are whole, the payload at `(p, q)` is the layer of
    the arrays at `(r, q)`. -/
theorem pay3_layer (A0 : S50000x256.Idx → EReal) (A1 : S50000x1.Idx → EReal) (A2 : S50000x256.Idx → EReal)
    (A3 : S256x128.Idx → EReal) (A4 : S1x128.Idx → EReal) (A5 : S256x128.Idx → EReal)
    (x0 : Vec Ideal S2000x256 .f32) (x1 : Vec Ideal S2000x1 .f32) (x2 : Vec Ideal S2000x256 .f32)
    (x3 : Vec Ideal S256x128 .f32) (x4 : Vec Ideal S1x128 .f32) (x5 : Vec Ideal S256x128 .f32)
    (r : Fin 50000) (p : Fin 2000) (q : Fin 128)
    (h0 : ∀ k : Fin 256, x0 (ix2 p k) = A0 (ix2 r k)) (h1 : x1 (ix2 p 0) = A1 (ix2 r 0))
    (h2 : ∀ k : Fin 256, x2 (ix2 p k) = A2 (ix2 r k)) (h3 : x3 = A3) (h4 : x4 = A4) (h5 : x5 = A5) :
    k3_pay1 (F := Ideal) x1 x0 x2 x3 x5 x4 (ix2 p q)
      = Cert.Spec.layer (N := 50000) (Fi := 256) (Fo := 128) A0 A1 A2 A3 A4 A5 r q := by
  rw [pay3_apply, h1, h3, h4, h5]
  unfold Cert.Spec.layer
  congr 2
  · congr 1
    exact Finset.sum_congr rfl fun k _ => by rw [h0 k]
  · exact Finset.sum_congr rfl fun k _ => by rw [h2 k]

/-! ## From the blocks to the arrays -/

-- the TensorCore's buffer contents when the region is entered, at the ideal instance
variable (V : (c : Dev nD) → (b : Ref sig .tc) → Buf (Elt Ideal) ((c : Thread nD τ).loc b))

/-- The zero offsets of the body's whole-buffer accesses, however spelt. -/
theorem hz3 : (![0, 0] : Fin 2 → Nat) = fun _ => 0 := funext fun a => by fin_cases a <;> rfl

/-- The index maps over the grid: the three row windows and the output sit at block `(t, 0)`, the weights
    and the bias row at block `(0, 0)`. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row `p` of block `t` is row `2000 t + p` of the array. -/
def row3 (t : Fin cfg3.N) (p : Fin 2000) : Fin 50000 :=
  ⟨t.val * 2000 + p.val, by have ht : t.val < 25 := t.isLt; have := p.isLt; omega⟩

/-- Block `t` of the summed neighbour features, at `(p, k)`. -/
theorem iblk3_0_apply (c : Dev nD) (t : Fin cfg3.N) (p : Fin 2000) (k : Fin 256) :
    iblk3 V c 0 t (ix2 p k) = V c main_v47 (ix2 (row3 t p) k) := by
  show V c main_v47 (((cfg3.win 0).blk t).view.emb (ix2 p k)) = V c main_v47 (ix2 (row3 t p) k)
  refine congrArg (V c main_v47) (funext fun a => Fin.ext ?_)
  obtain ⟨e00, e01, -⟩ := idx3 t
  match a with
  | ⟨0, _⟩ => show win3_0.index t (0 : Fin 2) * 2000 + 1 * p.val = t.val * 2000 + p.val; omega
  | ⟨1, _⟩ => show win3_0.index t (1 : Fin 2) * 256 + 1 * k.val = k.val; omega

/-- Block `t` of the count column, at `(p, 0)`. -/
theorem iblk3_1_apply (c : Dev nD) (t : Fin cfg3.N) (p : Fin 2000) (k : Fin 1) :
    iblk3 V c 1 t (ix2 p k) = V c main_v48 (ix2 (row3 t p) k) := by
  show V c main_v48 (((cfg3.win 1).blk t).view.emb (ix2 p k)) = V c main_v48 (ix2 (row3 t p) k)
  refine congrArg (V c main_v48) (funext fun a => Fin.ext ?_)
  obtain ⟨-, -, e10, e11, -⟩ := idx3 t
  match a with
  | ⟨0, _⟩ => show win3_1.index t (0 : Fin 2) * 2000 + 1 * p.val = t.val * 2000 + p.val; omega
  | ⟨1, _⟩ => show win3_1.index t (1 : Fin 2) * 1 + 1 * k.val = k.val; omega

/-- Block `t` of the node features, at `(p, k)`. -/
theorem iblk3_2_apply (c : Dev nD) (t : Fin cfg3.N) (p : Fin 2000) (k : Fin 256) :
    iblk3 V c 2 t (ix2 p k) = V c main_v37 (ix2 (row3 t p) k) := by
  show V c main_v37 (((cfg3.win 2).blk t).view.emb (ix2 p k)) = V c main_v37 (ix2 (row3 t p) k)
  refine congrArg (V c main_v37) (funext fun a => Fin.ext ?_)
  obtain ⟨-, -, -, -, e20, e21, -⟩ := idx3 t
  match a with
  | ⟨0, _⟩ => show win3_2.index t (0 : Fin 2) * 2000 + 1 * p.val = t.val * 2000 + p.val; omega
  | ⟨1, _⟩ => show win3_2.index t (1 : Fin 2) * 256 + 1 * k.val = k.val; omega

/-- The left weight's block is the whole weight at every point. -/
theorem iblk3_3_eq (c : Dev nD) (t : Fin cfg3.N) : iblk3 V c 3 t = V c main_arg10 := by
  funext y
  show V c main_arg10 (((cfg3.win 3).blk t).view.emb y) = V c main_arg10 y
  refine congrArg (V c main_arg10) (funext fun a => Fin.ext ?_)
  obtain ⟨-, -, -, -, -, -, e30, e31, -⟩ := idx3 t
  match a with
  | ⟨0, _⟩ => show win3_3.index t (0 : Fin 2) * 256 + 1 * (y 0).val = (y 0).val; omega
  | ⟨1, _⟩ => show win3_3.index t (1 : Fin 2) * 128 + 1 * (y 1).val = (y 1).val; omega

/-- The bias row's block is the whole row at every point. -/
theorem iblk3_4_eq (c : Dev nD) (t : Fin cfg3.N) : iblk3 V c 4 t = V c main_v49 := by
  funext y
  show V c main_v49 (((cfg3.win 4).blk t).view.emb y) = V c main_v49 y
  refine congrArg (V c main_v49) (funext fun a => Fin.ext ?_)
  obtain ⟨-, -, -, -, -, -, -, -, e40, e41, -⟩ := idx3 t
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- The right weight's block is the whole weight at every point. -/
theorem iblk3_5_eq (c : Dev nD) (t : Fin cfg3.N) : iblk3 V c 5 t = V c main_arg12 := by
  funext y
  show V c main_arg12 (((cfg3.win 5).blk t).view.emb y) = V c main_arg12 y
  refine congrArg (V c main_arg12) (funext fun a => Fin.ext ?_)
  obtain ⟨-, -, -, -, -, -, -, -, -, -, e50, e51, -⟩ := idx3 t
  match a with
  | ⟨0, _⟩ => show win3_5.index t (0 : Fin 2) * 256 + 1 * (y 0).val = (y 0).val; omega
  | ⟨1, _⟩ => show win3_5.index t (1 : Fin 2) * 128 + 1 * (y 1).val = (y 1).val; omega

/-- Entry `(p, q)` of the output's block `t` is entry `(2000 t + p, q)` of the output array. -/
theorem emb3_6 (t : Fin cfg3.N) (p : Fin 2000) (q : Fin 128) :
    ((cfg3.win 6).blk t).view.emb (ix2 p q) = ix2 (row3 t p) q := by
  refine funext fun a => Fin.ext ?_
  obtain ⟨-, -, -, -, -, -, -, -, -, -, -, -, e60, e61⟩ := idx3 t
  match a with
  | ⟨0, _⟩ => show win3_6.index t (0 : Fin 2) * 2000 + 1 * p.val = t.val * 2000 + p.val; omega
  | ⟨1, _⟩ => show win3_6.index t (1 : Fin 2) * 128 + 1 * q.val = q.val; omega

/-- What point `t` writes back is block `t` of the layer of the arrays the launch was entered with. -/
theorem flushed3_eq (c : Dev nD) (t : Fin cfg3.N) :
    (dat3 V c).flushed 6 t = ((cfg3.win 6).blk t).view.read (Elt Ideal)
      (Cert.Spec.layerA (N := 50000) (Fi := 256) (Fo := 128) (V c main_v47) (V c main_v48) (V c main_v37) (V c main_arg10) (V c main_v49) (V c main_arg12)) := by
  show (cfg3.win 6).cut (grid3.coords t) ((dat3 V c).after 6 t) = _
  rw [after3_6]
  unfold out3_6
  rw [View.canon_unit_zero hz3]
  simp only [View.ld_unit_zero (S := S2000x256) hz3, View.ld_unit_zero (S := S2000x1) hz3, View.ld_unit_zero (S := S256x128) hz3, View.ld_unit_zero (S := S1x128) hz3]
  funext j
  obtain ⟨p, q, rfl⟩ : ∃ (p : Fin 2000) (q : Fin 128), j = ix2 p q := ⟨j 0, j 1, eq_ix2 j⟩
  refine Eq.trans (pay3_layer (V c main_v47) (V c main_v48) (V c main_v37) (V c main_arg10) (V c main_v49) (V c main_arg12)
    (iblk3 V c 0 t) (iblk3 V c 1 t) (iblk3 V c 2 t) (iblk3 V c 3 t) (iblk3 V c 4 t) (iblk3 V c 5 t) (row3 t p) p q
    (fun k => iblk3_0_apply V c t p k) (iblk3_1_apply V c t p 0) (fun k => iblk3_2_apply V c t p k)
    (iblk3_3_eq V c t) (iblk3_4_eq V c t) (iblk3_5_eq V c t)) ?_
  show _ = Cert.Spec.layerA (N := 50000) (Fi := 256) (Fo := 128) (V c main_v47) (V c main_v48) (V c main_v37) (V c main_arg10) (V c main_v49) (V c main_arg12)
    (((cfg3.win 6).blk t).view.emb (ix2 p q))
  rw [emb3_6]
  rfl

/-- An index of the output array is in point `t`'s block iff each coordinate is in the block's range on its axis. -/
theorem mem_blk3 (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v50).slice (win3_6.rect t)).set ↔ _
  rw [View.set_slice_whole, Rect.mem_set_unit]
  exact Iff.rfl

/-- The 25 blocks cover the output array: row `r` lies in block `r / 2000`. -/
theorem cover3 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  have ht : (i 0).val / 2000 < 25 := by omega
  refine ⟨⟨(i 0).val / 2000, ht⟩, flush3_6 _, ?_⟩
  rw [mem_blk3]
  obtain ⟨-, -, -, -, -, -, -, -, -, -, -, -, e60, e61⟩ := idx3 ⟨(i 0).val / 2000, ht⟩
  have e60' : win3_6.index ⟨(i 0).val / 2000, ht⟩ (0 : Fin 2) = (i 0).val / 2000 := e60
  intro a
  match a with
  | ⟨0, _⟩ =>
    show win3_6.index ⟨(i 0).val / 2000, ht⟩ (0 : Fin 2) * 2000 ≤ (i 0).val ∧ (i 0).val < win3_6.index ⟨(i 0).val / 2000, ht⟩ (0 : Fin 2) * 2000 + 2000
    omega
  | ⟨1, _⟩ =>
    show win3_6.index ⟨(i 0).val / 2000, ht⟩ (1 : Fin 2) * 128 ≤ (i 1).val ∧ (i 1).val < win3_6.index ⟨(i 0).val / 2000, ht⟩ (1 : Fin 2) * 128 + 128
    omega

/-- The last launch's output array after the run is the layer of its input arrays. -/
theorem final3 (c : Dev nD) :
    (dat3 V c).arrAt 6 cfg3.N
      = Cert.Spec.layerA (N := 50000) (Fi := 256) (Fo := 128) (V c main_v47) (V c main_v48) (V c main_v37) (V c main_arg10) (V c main_v49) (V c main_arg12) :=
  (dat3 V c).arrAt_eq_of_cover 6 _ (fun t _ => flushed3_eq V c t) cover3

end Cert.KernelIdeal.Val

end
-- ==== Proof.RefLayers.lean ====
/-
  The reference's four stages, each as one function of the arrays it reads, and each equal, entry by entry, to the
  plain formula of `Cert.Spec`: a general dot product with one contracted axis is the finite sum over that axis; a
  bias broadcast along the rows reads the bias at the column; a count broadcast along the columns reads the count at
  the row; the elementwise operations act entry by entry.
-/
import proofs.«102054_j21869973471634_1_alg».proof.ReferenceIdeal
import proofs.«102054_j21869973471634_1_alg».proof.Proof.Gen.ReferenceIdeal
import proofs.«102054_j21869973471634_1_alg».proof.Proof.Spec
import proofs.«102054_j21869973471634_1_alg».proof.Proof.LibDot2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Layers

open Cert.ReferenceIdeal Cert.ReferenceIdeal.Gen Idealize.ShloMosaic Idealize.ShloMosaic.ValueIdx

/-! ## The layout operations read at an index, for any sizes -/

section Read
variable {α : Type}

/-- A one-row array stretched along the rows: the entry at (p, q) is the row's entry at q. -/
theorem rowBcast_apply {N Fo : Nat}
    (h : (⟨2, ![1, Fo]⟩ : Shape).BroadcastsInDim ⟨2, ![N, Fo]⟩ (![0, 1] : Fin 2 → Fin 2))
    (y : (⟨2, ![1, Fo]⟩ : Shape).Idx → α) (p : Fin N) (q : Fin Fo) :
    broadcastInDim ⟨2, ![N, Fo]⟩ ![0, 1] h y (ix2 p q) = y (ix2 0 q) := by
  refine broadcastInDim_apply _ h y (ix2 p q) (ix2 0 q) (fun a => ?_)
  match a with
  | ⟨0, _⟩ => show (0 : Nat) = if (1 : Nat) = 1 then 0 else p.val; rw [if_pos rfl]
  | ⟨1, _⟩ =>
    show q.val = if Fo = 1 then 0 else q.val
    have hq := q.isLt
    split <;> omega

/-- A vector laid as a one-row array: the entry at (0, q) is the vector's entry at q. -/
theorem vecRow_apply {Fo : Nat}
    (h : (⟨1, ![Fo]⟩ : Shape).BroadcastsInDim ⟨2, ![1, Fo]⟩ (![1] : Fin 1 → Fin 2))
    (b : (⟨1, ![Fo]⟩ : Shape).Idx → α) (z : Fin 1) (q : Fin Fo) :
    broadcastInDim ⟨2, ![1, Fo]⟩ ![1] h b (ix2 z q) = b (ix1 q) := by
  refine broadcastInDim_apply _ h b (ix2 z q) (ix1 q) (fun a => ?_)
  match a with
  | ⟨0, _⟩ =>
    show q.val = if Fo = 1 then 0 else q.val
    have hq := q.isLt
    split <;> omega

/-- A one-column array stretched along the columns: the entry at (p, k) is the column's entry at p. -/
theorem colBcast_apply {N Fi : Nat}
    (h : (⟨2, ![N, 1]⟩ : Shape).BroadcastsInDim ⟨2, ![N, Fi]⟩ (![0, 1] : Fin 2 → Fin 2))
    (y : (⟨2, ![N, 1]⟩ : Shape).Idx → α) (p : Fin N) (k : Fin Fi) :
    broadcastInDim ⟨2, ![N, Fi]⟩ ![0, 1] h y (ix2 p k) = y (ix2 p 0) := by
  refine broadcastInDim_apply _ h y (ix2 p k) (ix2 p 0) (fun a => ?_)
  match a with
  | ⟨0, _⟩ =>
    show p.val = if N = 1 then 0 else p.val
    have hp := p.isLt
    split <;> omega
  | ⟨1, _⟩ => show (0 : Nat) = if (1 : Nat) = 1 then 0 else k.val; rw [if_pos rfl]

/-- A vector laid as a one-column array: the entry at (p, 0) is the vector's entry at p. -/
theorem vecCol_apply {N : Nat}
    (h : (⟨1, ![N]⟩ : Shape).BroadcastsInDim ⟨2, ![N, 1]⟩ (![0] : Fin 1 → Fin 2))
    (c : (⟨1, ![N]⟩ : Shape).Idx → α) (p : Fin N) (z : Fin 1) :
    broadcastInDim ⟨2, ![N, 1]⟩ ![0] h c (ix2 p z) = c (ix1 p) := by
  refine broadcastInDim_apply _ h c (ix2 p z) (ix1 p) (fun a => ?_)
  match a with
  | ⟨0, _⟩ =>
    show p.val = if N = 1 then 0 else p.val
    have hp := p.isLt
    split <;> omega

/-- A scalar stretched to any shape: every entry is the scalar. -/
theorem scalarBcast_apply {t : Shape}
    (h : (⟨0, ![]⟩ : Shape).BroadcastsInDim t (![] : Fin 0 → Fin t.rank))
    (y : (⟨0, ![]⟩ : Shape).Idx → α) (j : t.Idx) :
    broadcastInDim t ![] h y j = y ix0 :=
  broadcastInDim_apply _ h y j ix0 (fun a => a.elim0)

end Read

/-! ## The two stages, for any sizes -/

section Stages
variable {N Fi Fo : Nat}

/-- The dense projection over the plain matrix-product record, entry by entry. -/
theorem dense_read
    (wf : DotDims.WF ⟨2, ![N, Fi]⟩ ⟨2, ![Fi, Fo]⟩ ⟨2, ![N, Fo]⟩ [1] [0] [0] [1] [] [])
    (hrow : (⟨2, ![1, Fo]⟩ : Shape).BroadcastsInDim ⟨2, ![N, Fo]⟩ (![0, 1] : Fin 2 → Fin 2))
    (hvr : (⟨1, ![Fo]⟩ : Shape).BroadcastsInDim ⟨2, ![1, Fo]⟩ (![1] : Fin 1 → Fin 2))
    (hsO : (⟨0, ![]⟩ : Shape).BroadcastsInDim ⟨2, ![N, Fo]⟩ (![] : Fin 0 → Fin 2))
    (x : FVec Ideal ⟨2, ![N, Fi]⟩ .f32) (W : FVec Ideal ⟨2, ![Fi, Fo]⟩ .f32) (b : FVec Ideal ⟨1, ![Fo]⟩ .f32)
    (b2 : (⟨2, ![1, Fo]⟩ : Shape).Idx → EReal) (hb : ∀ q : Fin Fo, b2 (ix2 0 q) = b (ix1 q)) :
    maximumf (addf (Host.dotGeneral (F := Ideal) (Dot2.mmDims N Fi Fo wf) none x W)
        (broadcastInDim ⟨2, ![N, Fo]⟩ ![0, 1] hrow (broadcastInDim ⟨2, ![1, Fo]⟩ ![1] hvr b)))
      (broadcastInDim ⟨2, ![N, Fo]⟩ ![] hsO (constant (F := Ideal) ⟨0, ![]⟩ .f32 0x00000000#32))
      = Cert.Spec.denseA x W b2 := by
  funext j
  obtain ⟨p, q, rfl⟩ : ∃ (p : Fin N) (q : Fin Fo), j = ix2 p q := ⟨j 0, j 1, eq_ix2 j⟩
  show FloatOps.maximumf (FloatOps.addf (Host.dotGeneral (F := Ideal) (Dot2.mmDims N Fi Fo wf) none x W (ix2 p q))
        (broadcastInDim ⟨2, ![N, Fo]⟩ ![0, 1] hrow (broadcastInDim ⟨2, ![1, Fo]⟩ ![1] hvr b) (ix2 p q)))
      (broadcastInDim ⟨2, ![N, Fo]⟩ ![] hsO (constant (F := Ideal) ⟨0, ![]⟩ .f32 0x00000000#32) (ix2 p q))
      = Cert.Spec.dense x W b2 p q
  rw [Dot2.host_dotGeneral_mm_apply, rowBcast_apply, vecRow_apply, scalarBcast_apply]
  unfold Cert.Spec.dense
  rw [hb q]
  rfl

/-- The mean of the neighbours' features, entry by entry: the summed features over the count, the count no less than
    one. -/
theorem mean_read
    (hcol : (⟨2, ![N, 1]⟩ : Shape).BroadcastsInDim ⟨2, ![N, Fi]⟩ (![0, 1] : Fin 2 → Fin 2))
    (hvc : (⟨1, ![N]⟩ : Shape).BroadcastsInDim ⟨2, ![N, 1]⟩ (![0] : Fin 1 → Fin 2))
    (hsN : (⟨0, ![]⟩ : Shape).BroadcastsInDim ⟨1, ![N]⟩ (![] : Fin 0 → Fin 1))
    (agg : FVec Ideal ⟨2, ![N, Fi]⟩ .f32) (cnt : FVec Ideal ⟨1, ![N]⟩ .f32) (p : Fin N) (k : Fin Fi) :
    Host.divf (F := Ideal) agg (broadcastInDim ⟨2, ![N, Fi]⟩ ![0, 1] hcol (broadcastInDim ⟨2, ![N, 1]⟩ ![0] hvc
        (maximumf cnt (broadcastInDim ⟨1, ![N]⟩ ![] hsN (constant (F := Ideal) ⟨0, ![]⟩ .f32 0x3F800000#32))))) (ix2 p k)
      = Ideal.div (agg (ix2 p k)) (max (cnt (ix1 p)) (Ideal.ofBits .f32 0x3F800000#32)) := by
  show FloatOps.hostDivf (agg (ix2 p k)) (broadcastInDim ⟨2, ![N, Fi]⟩ ![0, 1] hcol (broadcastInDim ⟨2, ![N, 1]⟩ ![0] hvc
        (maximumf cnt (broadcastInDim ⟨1, ![N]⟩ ![] hsN (constant (F := Ideal) ⟨0, ![]⟩ .f32 0x3F800000#32)))) (ix2 p k)) = _
  rw [colBcast_apply, vecCol_apply]
  show FloatOps.hostDivf (agg (ix2 p k)) (FloatOps.maximumf (cnt (ix1 p))
      (broadcastInDim ⟨1, ![N]⟩ ![] hsN (constant (F := Ideal) ⟨0, ![]⟩ .f32 0x3F800000#32) (ix1 p))) = _
  rw [scalarBcast_apply]
  rfl

/-- The mean-aggregation layer over the plain matrix-product record, entry by entry. -/
theorem layer_read
    (wf : DotDims.WF ⟨2, ![N, Fi]⟩ ⟨2, ![Fi, Fo]⟩ ⟨2, ![N, Fo]⟩ [1] [0] [0] [1] [] [])
    (hcol : (⟨2, ![N, 1]⟩ : Shape).BroadcastsInDim ⟨2, ![N, Fi]⟩ (![0, 1] : Fin 2 → Fin 2))
    (hvc : (⟨1, ![N]⟩ : Shape).BroadcastsInDim ⟨2, ![N, 1]⟩ (![0] : Fin 1 → Fin 2))
    (hsN : (⟨0, ![]⟩ : Shape).BroadcastsInDim ⟨1, ![N]⟩ (![] : Fin 0 → Fin 1))
    (hrow : (⟨2, ![1, Fo]⟩ : Shape).BroadcastsInDim ⟨2, ![N, Fo]⟩ (![0, 1] : Fin 2 → Fin 2))
    (hvr : (⟨1, ![Fo]⟩ : Shape).BroadcastsInDim ⟨2, ![1, Fo]⟩ (![1] : Fin 1 → Fin 2))
    (hsO : (⟨0, ![]⟩ : Shape).BroadcastsInDim ⟨2, ![N, Fo]⟩ (![] : Fin 0 → Fin 2))
    (agg : FVec Ideal ⟨2, ![N, Fi]⟩ .f32) (cnt : FVec Ideal ⟨1, ![N]⟩ .f32) (feat : FVec Ideal ⟨2, ![N, Fi]⟩ .f32)
    (Wl : FVec Ideal ⟨2, ![Fi, Fo]⟩ .f32) (bl : FVec Ideal ⟨1, ![Fo]⟩ .f32) (Wr : FVec Ideal ⟨2, ![Fi, Fo]⟩ .f32)
    (cnt2 : (⟨2, ![N, 1]⟩ : Shape).Idx → EReal) (hc : ∀ p : Fin N, cnt2 (ix2 p 0) = cnt (ix1 p))
    (bl2 : (⟨2, ![1, Fo]⟩ : Shape).Idx → EReal) (hb : ∀ q : Fin Fo, bl2 (ix2 0 q) = bl (ix1 q)) :
    maximumf (addf (addf
        (Host.dotGeneral (F := Ideal) (Dot2.mmDims N Fi Fo wf) none
          (Host.divf (F := Ideal) agg (broadcastInDim ⟨2, ![N, Fi]⟩ ![0, 1] hcol (broadcastInDim ⟨2, ![N, 1]⟩ ![0] hvc
            (maximumf cnt (broadcastInDim ⟨1, ![N]⟩ ![] hsN (constant (F := Ideal) ⟨0, ![]⟩ .f32 0x3F800000#32)))))) Wl)
        (broadcastInDim ⟨2, ![N, Fo]⟩ ![0, 1] hrow (broadcastInDim ⟨2, ![1, Fo]⟩ ![1] hvr bl)))
        (Host.dotGeneral (F := Ideal) (Dot2.mmDims N Fi Fo wf) none feat Wr))
      (broadcastInDim ⟨2, ![N, Fo]⟩ ![] hsO (constant (F := Ideal) ⟨0, ![]⟩ .f32 0x00000000#32))
      = Cert.Spec.layerA agg cnt2 feat Wl bl2 Wr := by
  funext j
  obtain ⟨p, q, rfl⟩ : ∃ (p : Fin N) (q : Fin Fo), j = ix2 p q := ⟨j 0, j 1, eq_ix2 j⟩
  show FloatOps.maximumf (FloatOps.addf (FloatOps.addf
        (Host.dotGeneral (F := Ideal) (Dot2.mmDims N Fi Fo wf) none
          (Host.divf (F := Ideal) agg (broadcastInDim ⟨2, ![N, Fi]⟩ ![0, 1] hcol (broadcastInDim ⟨2, ![N, 1]⟩ ![0] hvc
            (maximumf cnt (broadcastInDim ⟨1, ![N]⟩ ![] hsN (constant (F := Ideal) ⟨0, ![]⟩ .f32 0x3F800000#32)))))) Wl (ix2 p q))
        (broadcastInDim ⟨2, ![N, Fo]⟩ ![0, 1] hrow (broadcastInDim ⟨2, ![1, Fo]⟩ ![1] hvr bl) (ix2 p q)))
        (Host.dotGeneral (F := Ideal) (Dot2.mmDims N Fi Fo wf) none feat Wr (ix2 p q)))
      (broadcastInDim ⟨2, ![N, Fo]⟩ ![] hsO (constant (F := Ideal) ⟨0, ![]⟩ .f32 0x00000000#32) (ix2 p q))
      = Cert.Spec.layer agg cnt2 feat Wl bl2 Wr p q
  rw [Dot2.host_dotGeneral_mm_apply, Dot2.host_dotGeneral_mm_apply, rowBcast_apply, vecRow_apply, scalarBcast_apply]
  have hs : ∑ k : Fin Fi, Host.divf (F := Ideal) agg (broadcastInDim ⟨2, ![N, Fi]⟩ ![0, 1] hcol (broadcastInDim ⟨2, ![N, 1]⟩ ![0] hvc
            (maximumf cnt (broadcastInDim ⟨1, ![N]⟩ ![] hsN (constant (F := Ideal) ⟨0, ![]⟩ .f32 0x3F800000#32))))) (ix2 p k) * Wl (ix2 k q)
      = ∑ k : Fin Fi, Ideal.div (agg (ix2 p k)) (max (cnt (ix1 p)) (Ideal.ofBits .f32 0x3F800000#32)) * Wl (ix2 k q) :=
    Finset.sum_congr rfl fun k _ => by rw [mean_read]
  rw [hs]
  unfold Cert.Spec.layer
  rw [hc p, hb q]
  rfl

end Stages

/-- The dense projection as the reference spells it. -/
def refDense (x : FVec Ideal S50000x64 .f32) (W : FVec Ideal S64x64 .f32) (b : FVec Ideal S64 .f32) : FVec Ideal S50000x64 .f32 :=
  maximumf (addf (Host.dotGeneral (F := Ideal) dot_S50000x64_S64x64_S50000x64_1_0_0_1_n_n none x W)
      (broadcastInDim S50000x64 ![0, 1] bcast_S1x64_S50000x64_0_1 (broadcastInDim S1x64 ![1] bcast_S64_S1x64_1 b)))
    (broadcastInDim S50000x64 ![] bcast_S_S50000x64 (constant (F := Ideal) S_ .f32 0x00000000#32))

/-- Entry by entry it is the dense projection of `Cert.Spec`, the bias read as a row. -/
theorem refDense_eq (x : FVec Ideal S50000x64 .f32) (W : FVec Ideal S64x64 .f32) (b : FVec Ideal S64 .f32)
    (b2 : (⟨2, ![1, 64]⟩ : Shape).Idx → EReal) (hb : ∀ q : Fin 64, b2 (ix2 0 q) = b (ix1 q)) :
    refDense x W b = Cert.Spec.denseA (N := 50000) (Fi := 64) (Fo := 64) x W b2 := by
  unfold refDense
  exact dense_read (N := 50000) (Fi := 64) (Fo := 64) dot_S50000x64_S64x64_S50000x64_1_0_0_1_n_n_wf
    bcast_S1x64_S50000x64_0_1 bcast_S64_S1x64_1 bcast_S_S50000x64 x W b b2 hb

/-- Layer 1 as the reference spells it, from the summed neighbour features, the neighbour counts, the node features, the two
    weights and the bias. -/
def refLayer1 (agg : FVec Ideal S50000x64 .f32) (cnt : FVec Ideal S50000 .f32) (feat : FVec Ideal S50000x64 .f32)
    (Wl : FVec Ideal S64x64 .f32) (bl : FVec Ideal S64 .f32) (Wr : FVec Ideal S64x64 .f32) : FVec Ideal S50000x64 .f32 :=
  maximumf (addf (addf
      (Host.dotGeneral (F := Ideal) dot_S50000x64_S64x64_S50000x64_1_0_0_1_n_n none
        (Host.divf (F := Ideal) agg (broadcastInDim S50000x64 ![0, 1] bcast_S50000x1_S50000x64_0_1 (broadcastInDim S50000x1 ![0] bcast_S50000_S50000x1_0
          (maximumf cnt (broadcastInDim S50000 ![] bcast_S_S50000 (constant (F := Ideal) S_ .f32 0x3F800000#32)))))) Wl)
      (broadcastInDim S50000x64 ![0, 1] bcast_S1x64_S50000x64_0_1 (broadcastInDim S1x64 ![1] bcast_S64_S1x64_1 bl)))
      (Host.dotGeneral (F := Ideal) dot_S50000x64_S64x64_S50000x64_1_0_0_1_n_n none feat Wr))
    (broadcastInDim S50000x64 ![] bcast_S_S50000x64 (constant (F := Ideal) S_ .f32 0x00000000#32))

/-- Entry by entry it is the layer of `Cert.Spec`, the counts read as a column and the bias as a row. -/
theorem refLayer1_eq (agg : FVec Ideal S50000x64 .f32) (cnt : FVec Ideal S50000 .f32) (feat : FVec Ideal S50000x64 .f32)
    (Wl : FVec Ideal S64x64 .f32) (bl : FVec Ideal S64 .f32) (Wr : FVec Ideal S64x64 .f32)
    (cnt2 : (⟨2, ![50000, 1]⟩ : Shape).Idx → EReal) (hc : ∀ p : Fin 50000, cnt2 (ix2 p 0) = cnt (ix1 p))
    (bl2 : (⟨2, ![1, 64]⟩ : Shape).Idx → EReal) (hb : ∀ q : Fin 64, bl2 (ix2 0 q) = bl (ix1 q)) :
    refLayer1 agg cnt feat Wl bl Wr = Cert.Spec.layerA (N := 50000) (Fi := 64) (Fo := 64) agg cnt2 feat Wl bl2 Wr := by
  unfold refLayer1
  exact layer_read (N := 50000) (Fi := 64) (Fo := 64) dot_S50000x64_S64x64_S50000x64_1_0_0_1_n_n_wf
    bcast_S50000x1_S50000x64_0_1 bcast_S50000_S50000x1_0 bcast_S_S50000
    bcast_S1x64_S50000x64_0_1 bcast_S64_S1x64_1 bcast_S_S50000x64 agg cnt feat Wl bl Wr cnt2 hc bl2 hb

/-- Layer 2 as the reference spells it, from the summed neighbour features, the neighbour counts, the node features, the two
    weights and the bias. -/
def refLayer2 (agg : FVec Ideal S50000x128 .f32) (cnt : FVec Ideal S50000 .f32) (feat : FVec Ideal S50000x128 .f32)
    (Wl : FVec Ideal S128x128 .f32) (bl : FVec Ideal S128 .f32) (Wr : FVec Ideal S128x128 .f32) : FVec Ideal S50000x128 .f32 :=
  maximumf (addf (addf
      (Host.dotGeneral (F := Ideal) dot_S50000x128_S128x128_S50000x128_1_0_0_1_n_n none
        (Host.divf (F := Ideal) agg (broadcastInDim S50000x128 ![0, 1] bcast_S50000x1_S50000x128_0_1 (broadcastInDim S50000x1 ![0] bcast_S50000_S50000x1_0
          (maximumf cnt (broadcastInDim S50000 ![] bcast_S_S50000 (constant (F := Ideal) S_ .f32 0x3F800000#32)))))) Wl)
      (broadcastInDim S50000x128 ![0, 1] bcast_S1x128_S50000x128_0_1 (broadcastInDim S1x128 ![1] bcast_S128_S1x128_1 bl)))
      (Host.dotGeneral (F := Ideal) dot_S50000x128_S128x128_S50000x128_1_0_0_1_n_n none feat Wr))
    (broadcastInDim S50000x128 ![] bcast_S_S50000x128 (constant (F := Ideal) S_ .f32 0x00000000#32))

/-- Entry by entry it is the layer of `Cert.Spec`, the counts read as a column and the bias as a row. -/
theorem refLayer2_eq (agg : FVec Ideal S50000x128 .f32) (cnt : FVec Ideal S50000 .f32) (feat : FVec Ideal S50000x128 .f32)
    (Wl : FVec Ideal S128x128 .f32) (bl : FVec Ideal S128 .f32) (Wr : FVec Ideal S128x128 .f32)
    (cnt2 : (⟨2, ![50000, 1]⟩ : Shape).Idx → EReal) (hc : ∀ p : Fin 50000, cnt2 (ix2 p 0) = cnt (ix1 p))
    (bl2 : (⟨2, ![1, 128]⟩ : Shape).Idx → EReal) (hb : ∀ q : Fin 128, bl2 (ix2 0 q) = bl (ix1 q)) :
    refLayer2 agg cnt feat Wl bl Wr = Cert.Spec.layerA (N := 50000) (Fi := 128) (Fo := 128) agg cnt2 feat Wl bl2 Wr := by
  unfold refLayer2
  exact layer_read (N := 50000) (Fi := 128) (Fo := 128) dot_S50000x128_S128x128_S50000x128_1_0_0_1_n_n_wf
    bcast_S50000x1_S50000x128_0_1 bcast_S50000_S50000x1_0 bcast_S_S50000
    bcast_S1x128_S50000x128_0_1 bcast_S128_S1x128_1 bcast_S_S50000x128 agg cnt feat Wl bl Wr cnt2 hc bl2 hb

/-- Layer 3 as the reference spells it, from the summed neighbour features, the neighbour counts, the node features, the two
    weights and the bias. -/
def refLayer3 (agg : FVec Ideal S50000x256 .f32) (cnt : FVec Ideal S50000 .f32) (feat : FVec Ideal S50000x256 .f32)
    (Wl : FVec Ideal S256x128 .f32) (bl : FVec Ideal S128 .f32) (Wr : FVec Ideal S256x128 .f32) : FVec Ideal S50000x128 .f32 :=
  maximumf (addf (addf
      (Host.dotGeneral (F := Ideal) dot_S50000x256_S256x128_S50000x128_1_0_0_1_n_n none
        (Host.divf (F := Ideal) agg (broadcastInDim S50000x256 ![0, 1] bcast_S50000x1_S50000x256_0_1 (broadcastInDim S50000x1 ![0] bcast_S50000_S50000x1_0
          (maximumf cnt (broadcastInDim S50000 ![] bcast_S_S50000 (constant (F := Ideal) S_ .f32 0x3F800000#32)))))) Wl)
      (broadcastInDim S50000x128 ![0, 1] bcast_S1x128_S50000x128_0_1 (broadcastInDim S1x128 ![1] bcast_S128_S1x128_1 bl)))
      (Host.dotGeneral (F := Ideal) dot_S50000x256_S256x128_S50000x128_1_0_0_1_n_n none feat Wr))
    (broadcastInDim S50000x128 ![] bcast_S_S50000x128 (constant (F := Ideal) S_ .f32 0x00000000#32))

/-- Entry by entry it is the layer of `Cert.Spec`, the counts read as a column and the bias as a row. -/
theorem refLayer3_eq (agg : FVec Ideal S50000x256 .f32) (cnt : FVec Ideal S50000 .f32) (feat : FVec Ideal S50000x256 .f32)
    (Wl : FVec Ideal S256x128 .f32) (bl : FVec Ideal S128 .f32) (Wr : FVec Ideal S256x128 .f32)
    (cnt2 : (⟨2, ![50000, 1]⟩ : Shape).Idx → EReal) (hc : ∀ p : Fin 50000, cnt2 (ix2 p 0) = cnt (ix1 p))
    (bl2 : (⟨2, ![1, 128]⟩ : Shape).Idx → EReal) (hb : ∀ q : Fin 128, bl2 (ix2 0 q) = bl (ix1 q)) :
    refLayer3 agg cnt feat Wl bl Wr = Cert.Spec.layerA (N := 50000) (Fi := 256) (Fo := 128) agg cnt2 feat Wl bl2 Wr := by
  unfold refLayer3
  exact layer_read (N := 50000) (Fi := 256) (Fo := 128) dot_S50000x256_S256x128_S50000x128_1_0_0_1_n_n_wf
    bcast_S50000x1_S50000x256_0_1 bcast_S50000_S50000x1_0 bcast_S_S50000
    bcast_S1x128_S50000x128_0_1 bcast_S128_S1x128_1 bcast_S_S50000x128 agg cnt feat Wl bl Wr cnt2 hc bl2 hb

end Cert.ReferenceIdeal.Layers

end
-- ==== Proof.Bridge.lean ====
/-
  The kernel's result is the reference's result, stage by stage, on the extended reals.

  Both programs compute the same four stages: the dense projection `xp = relu(x · Wp + bp)` and three
  mean-aggregation layers, each reading the concatenation of the earlier stages' outputs. Around the stages both
  apply the SAME host operations to the same values: the edge list is split into sources and destinations, a
  negative source is wrapped, the features are gathered along the sources and summed into the destinations, the
  destinations are counted, the earlier outputs are concatenated. Those operations are never opened here: gather and
  scatter-sum are carried as the opaque functions they are, and the two programs' terms for them coincide once the
  values going in coincide.

  So the proof is an induction along @main. What the kernel's program holds in a stage's output array after the
  stage's launch is, entry by entry, the plain formula of that stage over the arrays the launch was entered with
  (the launch's value lemma); the reference's stage is the same formula over its own operands (the reference's
  layer lemma); and the operands agree by the stages before. A bias enters the tiled program as a one-row array and a
  count as a one-column array; read at an entry these reshapes are the bias at the column and the count at the row.
-/
import proofs.«102054_j21869973471634_1_alg».proof.Proof.KI.Run
import proofs.«102054_j21869973471634_1_alg».proof.Proof.KI.Val0
import proofs.«102054_j21869973471634_1_alg».proof.Proof.KI.Val1
import proofs.«102054_j21869973471634_1_alg».proof.Proof.KI.Val2
import proofs.«102054_j21869973471634_1_alg».proof.Proof.KI.Val3
import proofs.«102054_j21869973471634_1_alg».proof.Proof.RefLayers
import proofs.«102054_j21869973471634_1_alg».proof.Proof.Gen.ReferenceIdeal.Read
import Idealize.ShloMosaic.Lib.StableHlo.Run
import Idealize.ShloMosaic.Lib.ValueLayout

set_option maxRecDepth 16384

noncomputable section

namespace Cert.Bridge

open Cert.KernelIdeal Cert.KernelIdeal.Gen Cert.KernelIdeal.GenP Cert.KernelIdeal.Reg Cert.KernelIdeal.Run Cert.KernelIdeal.Val
open Idealize.ShloMosaic Idealize.ShloMosaic.TcCoe Idealize.ShloMosaic.ValueIdx
open Idealize.SL Idealize.SL.Sem
open Cert.ReferenceIdeal.Read (val_main_v1 val_main_v3 val_main_v8 val_main_v18 val_main_v22 val_main_v34 val_main_v35 val_main_v45
  val_main_v49 val_main_v61 val_main_v62 val_main_v72 val_main_v76 val_main_v88)
open Cert.ReferenceIdeal.Layers (refDense refDense_eq refLayer1 refLayer1_eq refLayer2 refLayer2_eq refLayer3 refLayer3_eq)

/-- A rank-1 array reshaped to a column, read at row `i`: the array at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

variable (m : (ℓ : Loc nD τ sig) → Buf (Elt Ideal) ℓ) (ρ : Dev nD → PrngReg) (c : Dev nD)

/-! ## Buffers that are carried unchanged -/

/-- An argument (or any buffer no host operation writes and no launch outputs) at the first launch's entry. -/
theorem at1 (r : Ref sig .tc) (h0 : r ∉ hostOps0_W) : W1 m ρ c (Proc.devRef .tc r) = m ((c.tc : Thread nD τ).loc r) :=
  (W1_keep m ρ c r h0).trans rfl
theorem at2 (r : Ref sig .tc) (h0 : r ∉ hostOps0_W) (o0 : r ≠ main_v9) : W2 m ρ c (Proc.devRef .tc r) = m ((c.tc : Thread nD τ).loc r) :=
  (W2_keep m ρ c r o0).trans (at1 m ρ c r h0)
theorem at3 (r : Ref sig .tc) (h0 : r ∉ hostOps0_W) (o0 : r ≠ main_v9) (h1 : r ∉ hostOps1_W) :
    W3 m ρ c (Proc.devRef .tc r) = m ((c.tc : Thread nD τ).loc r) :=
  (W3_keep m ρ c r h1).trans (at2 m ρ c r h0 o0)
theorem at4 (r : Ref sig .tc) (h0 : r ∉ hostOps0_W) (o0 : r ≠ main_v9) (h1 : r ∉ hostOps1_W) (o1 : r ≠ main_v22) :
    W4 m ρ c (Proc.devRef .tc r) = m ((c.tc : Thread nD τ).loc r) :=
  (W4_keep m ρ c r o1).trans (at3 m ρ c r h0 o0 h1)
theorem at5 (r : Ref sig .tc) (h0 : r ∉ hostOps0_W) (o0 : r ≠ main_v9) (h1 : r ∉ hostOps1_W) (o1 : r ≠ main_v22) (h2 : r ∉ hostOps2_W) :
    W5 m ρ c (Proc.devRef .tc r) = m ((c.tc : Thread nD τ).loc r) :=
  (W5_keep m ρ c r h2).trans (at4 m ρ c r h0 o0 h1 o1)
theorem at6 (r : Ref sig .tc) (h0 : r ∉ hostOps0_W) (o0 : r ≠ main_v9) (h1 : r ∉ hostOps1_W) (o1 : r ≠ main_v22) (h2 : r ∉ hostOps2_W)
    (o2 : r ≠ main_v36) : W6 m ρ c (Proc.devRef .tc r) = m ((c.tc : Thread nD τ).loc r) :=
  (W6_keep m ρ c r o2).trans (at5 m ρ c r h0 o0 h1 o1 h2)
theorem at7 (r : Ref sig .tc) (h0 : r ∉ hostOps0_W) (o0 : r ≠ main_v9) (h1 : r ∉ hostOps1_W) (o1 : r ≠ main_v22) (h2 : r ∉ hostOps2_W)
    (o2 : r ≠ main_v36) (h3 : r ∉ hostOps3_W) : W7 m ρ c (Proc.devRef .tc r) = m ((c.tc : Thread nD τ).loc r) :=
  (W7_keep m ρ c r h3).trans (at6 m ρ c r h0 o0 h1 o1 h2 o2)

/-- What the first stretch of host operations computed stays in place up to each later launch. -/
theorem from1_2 (r : Ref sig .tc) (o0 : r ≠ main_v9) : W2 m ρ c (Proc.devRef .tc r) = W1 m ρ c (Proc.devRef .tc r) := W2_keep m ρ c r o0
theorem from1_4 (r : Ref sig .tc) (o0 : r ≠ main_v9) (h1 : r ∉ hostOps1_W) (o1 : r ≠ main_v22) :
    W4 m ρ c (Proc.devRef .tc r) = W1 m ρ c (Proc.devRef .tc r) :=
  (W4_keep m ρ c r o1).trans ((W3_keep m ρ c r h1).trans (W2_keep m ρ c r o0))
theorem from1_6 (r : Ref sig .tc) (o0 : r ≠ main_v9) (h1 : r ∉ hostOps1_W) (o1 : r ≠ main_v22) (h2 : r ∉ hostOps2_W) (o2 : r ≠ main_v36) :
    W6 m ρ c (Proc.devRef .tc r) = W1 m ρ c (Proc.devRef .tc r) :=
  (W6_keep m ρ c r o2).trans ((W5_keep m ρ c r h2).trans (from1_4 m ρ c r o0 h1 o1))
/-- The first launch's output stays in place up to each later launch, -/
theorem from2_4 (r : Ref sig .tc) (h1 : r ∉ hostOps1_W) (o1 : r ≠ main_v22) : W4 m ρ c (Proc.devRef .tc r) = W2 m ρ c (Proc.devRef .tc r) :=
  (W4_keep m ρ c r o1).trans (W3_keep m ρ c r h1)
theorem from2_6 (r : Ref sig .tc) (h1 : r ∉ hostOps1_W) (o1 : r ≠ main_v22) (h2 : r ∉ hostOps2_W) (o2 : r ≠ main_v36) :
    W6 m ρ c (Proc.devRef .tc r) = W2 m ρ c (Proc.devRef .tc r) :=
  (W6_keep m ρ c r o2).trans ((W5_keep m ρ c r h2).trans (from2_4 m ρ c r h1 o1))
/-- and the second launch's up to the last. -/
theorem from4_6 (r : Ref sig .tc) (h2 : r ∉ hostOps2_W) (o2 : r ≠ main_v36) : W6 m ρ c (Proc.devRef .tc r) = W4 m ρ c (Proc.devRef .tc r) :=
  (W6_keep m ρ c r o2).trans (W5_keep m ρ c r h2)

/-! ## The edge list's sources, destinations and counts, and the first bias row -/

/-- The sources: the edge list's first row, as the reference reads it. -/
theorem src1 : W1 m ρ c (Proc.devRef .tc main_v1) = val_main_v1 (F := Ideal) (m ((c.tc : Thread nD τ).loc main_arg1)) := by
  show StableHlo.after hostOps0 (W0 m ρ c) (Proc.devRef .tc main_v1) = _
  after_results
  all_goals rfl
/-- The destinations: its second row. -/
theorem dst1 : W1 m ρ c (Proc.devRef .tc main_v3) = val_main_v3 (F := Ideal) (m ((c.tc : Thread nD τ).loc main_arg1)) := by
  show StableHlo.after hostOps0 (W0 m ρ c) (Proc.devRef .tc main_v3) = _
  after_results
  all_goals rfl
/-- The number of edges into each node: ones summed into the destinations. -/
theorem cnt1 : W1 m ρ c (Proc.devRef .tc main_v7) = val_main_v22 (F := Ideal) (m ((c.tc : Thread nD τ).loc main_arg1)) := by
  show StableHlo.after hostOps0 (W0 m ρ c) (Proc.devRef .tc main_v7) = _
  after_results
  all_goals rfl
/-- The projection's bias as a row. -/
theorem bias0 : W1 m ρ c (Proc.devRef .tc main_v8) = shapeCast S1x64 (m ((c.tc : Thread nD τ).loc main_arg3)) shapeCasts_S64_S1x64 := by
  show StableHlo.after hostOps0 (W0 m ρ c) (Proc.devRef .tc main_v8) = _
  after_results
  all_goals rfl

/-! ## Stage 0: the dense projection -/

theorem stage0 : W2 m ρ c (Proc.devRef .tc main_v9) = val_main_v8 (F := Ideal) (m ((c.tc : Thread nD τ).loc main_arg0)) (m ((c.tc : Thread nD τ).loc main_arg2)) (m ((c.tc : Thread nD τ).loc main_arg3)) := by
  refine (W2_arr m ρ c 3).trans ((final0 (V1 m ρ) c).trans ?_)
  rw [show V1 m ρ c main_arg0 = (m ((c.tc : Thread nD τ).loc main_arg0)) from at1 m ρ c main_arg0 (by decide),
    show V1 m ρ c main_arg2 = (m ((c.tc : Thread nD τ).loc main_arg2)) from at1 m ρ c main_arg2 (by decide)]
  refine ((refDense_eq (m ((c.tc : Thread nD τ).loc main_arg0)) (m ((c.tc : Thread nD τ).loc main_arg2)) (m ((c.tc : Thread nD τ).loc main_arg3)) (V1 m ρ c main_v8) fun q => ?_).symm).trans rfl
  rw [show V1 m ρ c main_v8 = shapeCast S1x64 (m ((c.tc : Thread nD τ).loc main_arg3)) shapeCasts_S64_S1x64 from bias0 m ρ c]
  exact shapeCast_a_1a_apply _ _ 0 q

/-! ## Stage 1: the first layer, over the node features themselves -/

/-- The neighbours' summed features: the features gathered along the (wrapped) sources, summed into the destinations. -/
theorem agg1 : W3 m ρ c (Proc.devRef .tc main_v19) = val_main_v18 (F := Ideal) (m ((c.tc : Thread nD τ).loc main_arg0)) (m ((c.tc : Thread nD τ).loc main_arg1)) := by
  show StableHlo.after hostOps1 (W2 m ρ c) (Proc.devRef .tc main_v19) = _
  after_results
  rw [(from1_2 m ρ c main_v1 (by decide)).trans (src1 m ρ c), (from1_2 m ρ c main_v3 (by decide)).trans (dst1 m ρ c),
    at2 m ρ c main_arg0 (by decide) (by decide)]
  all_goals rfl
/-- The counts as a column. -/
theorem cntcol1 : W3 m ρ c (Proc.devRef .tc main_v20) = shapeCast S50000x1 (val_main_v22 (F := Ideal) (m ((c.tc : Thread nD τ).loc main_arg1))) shapeCasts_S50000_S50000x1 := by
  show StableHlo.after hostOps1 (W2 m ρ c) (Proc.devRef .tc main_v20) = _
  after_results
  rw [(from1_2 m ρ c main_v7 (by decide)).trans (cnt1 m ρ c)]
  all_goals rfl
/-- The layer's bias as a row. -/
theorem bias1 : W3 m ρ c (Proc.devRef .tc main_v21) = shapeCast S1x64 (m ((c.tc : Thread nD τ).loc main_arg5)) shapeCasts_S64_S1x64 := by
  show StableHlo.after hostOps1 (W2 m ρ c) (Proc.devRef .tc main_v21) = _
  after_results
  rw [at2 m ρ c main_arg5 (by decide) (by decide)]
  all_goals rfl

theorem stage1 : W4 m ρ c (Proc.devRef .tc main_v22) = val_main_v34 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  refine (W4_arr m ρ c 6).trans ((final1 (V3 m ρ) c).trans ?_)
  rw [show V3 m ρ c main_v19 = _ from agg1 m ρ c, show V3 m ρ c main_v20 = _ from cntcol1 m ρ c,
    show V3 m ρ c main_arg0 = (m ((c.tc : Thread nD τ).loc main_arg0)) from at3 m ρ c main_arg0 (by decide) (by decide) (by decide),
    show V3 m ρ c main_arg4 = (m ((c.tc : Thread nD τ).loc main_arg4)) from at3 m ρ c main_arg4 (by decide) (by decide) (by decide),
    show V3 m ρ c main_v21 = _ from bias1 m ρ c,
    show V3 m ρ c main_arg6 = (m ((c.tc : Thread nD τ).loc main_arg6)) from at3 m ρ c main_arg6 (by decide) (by decide) (by decide)]
  exact ((refLayer1_eq (val_main_v18 (F := Ideal) (m ((c.tc : Thread nD τ).loc main_arg0)) (m ((c.tc : Thread nD τ).loc main_arg1))) (val_main_v22 (F := Ideal) (m ((c.tc : Thread nD τ).loc main_arg1))) (m ((c.tc : Thread nD τ).loc main_arg0)) (m ((c.tc : Thread nD τ).loc main_arg4)) (m ((c.tc : Thread nD τ).loc main_arg5)) (m ((c.tc : Thread nD τ).loc main_arg6))
    (shapeCast S50000x1 (val_main_v22 (F := Ideal) (m ((c.tc : Thread nD τ).loc main_arg1))) shapeCasts_S50000_S50000x1) (fun p => shapeCast_a_a1_apply _ _ p 0)
    (shapeCast S1x64 (m ((c.tc : Thread nD τ).loc main_arg5)) shapeCasts_S64_S1x64) (fun q => shapeCast_a_1a_apply _ _ 0 q)).symm).trans rfl

/-! ## Stage 2: the second layer, over the first two stages side by side -/

/-- The second layer's features: the projection and the first layer's output, concatenated. -/
theorem feat2 : W5 m ρ c (Proc.devRef .tc main_v23) = val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps2 (W4 m ρ c) (Proc.devRef .tc main_v23) = _
  after_results
  rw [(from2_4 m ρ c main_v9 (by decide) (by decide)).trans (stage0 m ρ c), stage1 m ρ c]
  all_goals rfl
theorem agg2 : W5 m ρ c (Proc.devRef .tc main_v33) = val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps2 (W4 m ρ c) (Proc.devRef .tc main_v33) = _
  after_results
  rw [(from2_4 m ρ c main_v9 (by decide) (by decide)).trans (stage0 m ρ c), stage1 m ρ c,
    (from1_4 m ρ c main_v1 (by decide) (by decide) (by decide)).trans (src1 m ρ c),
    (from1_4 m ρ c main_v3 (by decide) (by decide) (by decide)).trans (dst1 m ρ c)]
  all_goals rfl
theorem cntcol2 : W5 m ρ c (Proc.devRef .tc main_v34) = shapeCast S50000x1 (val_main_v49 (F := Ideal) (m ((c.tc : Thread nD τ).loc main_arg1))) shapeCasts_S50000_S50000x1 := by
  show StableHlo.after hostOps2 (W4 m ρ c) (Proc.devRef .tc main_v34) = _
  after_results
  rw [(from1_4 m ρ c main_v7 (by decide) (by decide) (by decide)).trans (cnt1 m ρ c)]
  all_goals rfl
theorem bias2 : W5 m ρ c (Proc.devRef .tc main_v35) = shapeCast S1x128 (m ((c.tc : Thread nD τ).loc main_arg8)) shapeCasts_S128_S1x128 := by
  show StableHlo.after hostOps2 (W4 m ρ c) (Proc.devRef .tc main_v35) = _
  after_results
  rw [at4 m ρ c main_arg8 (by decide) (by decide) (by decide) (by decide)]
  all_goals rfl

theorem stage2 : W6 m ρ c (Proc.devRef .tc main_v36) = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W6_arr m ρ c 6).trans ((final2 (V5 m ρ) c).trans ?_)
  rw [show V5 m ρ c main_v33 = _ from agg2 m ρ c, show V5 m ρ c main_v34 = _ from cntcol2 m ρ c,
    show V5 m ρ c main_v23 = _ from feat2 m ρ c,
    show V5 m ρ c main_arg7 = (m ((c.tc : Thread nD τ).loc main_arg7)) from at5 m ρ c main_arg7 (by decide) (by decide) (by decide) (by decide) (by decide),
    show V5 m ρ c main_v35 = _ from bias2 m ρ c,
    show V5 m ρ c main_arg9 = (m ((c.tc : Thread nD τ).loc main_arg9)) from at5 m ρ c main_arg9 (by decide) (by decide) (by decide) (by decide) (by decide)]
  exact ((refLayer2_eq (val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (val_main_v49 (F := Ideal) (m ((c.tc : Thread nD τ).loc main_arg1)))
    (val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9))
    (shapeCast S50000x1 (val_main_v49 (F := Ideal) (m ((c.tc : Thread nD τ).loc main_arg1))) shapeCasts_S50000_S50000x1) (fun p => shapeCast_a_a1_apply _ _ p 0)
    (shapeCast S1x128 (m ((c.tc : Thread nD τ).loc main_arg8)) shapeCasts_S128_S1x128) (fun q => shapeCast_a_1a_apply _ _ 0 q)).symm).trans rfl

/-! ## Stage 3: the last layer, over all three earlier stages side by side -/

theorem feat3 : W7 m ρ c (Proc.devRef .tc main_v37) = val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show StableHlo.after hostOps3 (W6 m ρ c) (Proc.devRef .tc main_v37) = _
  after_results
  dsimp only [Matrix.cons_val]
  rw [(from2_6 m ρ c main_v9 (by decide) (by decide) (by decide) (by decide)).trans (stage0 m ρ c),
    (from4_6 m ρ c main_v22 (by decide) (by decide)).trans (stage1 m ρ c), stage2 m ρ c]
  all_goals rfl
set_option maxHeartbeats 2000000 in
theorem agg3 : W7 m ρ c (Proc.devRef .tc main_v47) = val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show StableHlo.after hostOps3 (W6 m ρ c) (Proc.devRef .tc main_v47) = _
  after_results
  dsimp only [Matrix.cons_val]
  rw [(from2_6 m ρ c main_v9 (by decide) (by decide) (by decide) (by decide)).trans (stage0 m ρ c),
    (from4_6 m ρ c main_v22 (by decide) (by decide)).trans (stage1 m ρ c), stage2 m ρ c,
    (from1_6 m ρ c main_v1 (by decide) (by decide) (by decide) (by decide) (by decide)).trans (src1 m ρ c),
    (from1_6 m ρ c main_v3 (by decide) (by decide) (by decide) (by decide) (by decide)).trans (dst1 m ρ c)]
  all_goals rfl
theorem cntcol3 : W7 m ρ c (Proc.devRef .tc main_v48) = shapeCast S50000x1 (val_main_v76 (F := Ideal) (m ((c.tc : Thread nD τ).loc main_arg1))) shapeCasts_S50000_S50000x1 := by
  show StableHlo.after hostOps3 (W6 m ρ c) (Proc.devRef .tc main_v48) = _
  after_results
  rw [(from1_6 m ρ c main_v7 (by decide) (by decide) (by decide) (by decide) (by decide)).trans (cnt1 m ρ c)]
  all_goals rfl
theorem bias3 : W7 m ρ c (Proc.devRef .tc main_v49) = shapeCast S1x128 (m ((c.tc : Thread nD τ).loc main_arg11)) shapeCasts_S128_S1x128 := by
  show StableHlo.after hostOps3 (W6 m ρ c) (Proc.devRef .tc main_v49) = _
  after_results
  rw [at6 m ρ c main_arg11 (by decide) (by decide) (by decide) (by decide) (by decide) (by decide)]
  all_goals rfl

/-- The kernel's result array after the run is the reference's result, as a function of the thirteen arguments. -/
theorem stage3 : (dat3 (V7 m ρ) c).arrAt 6 cfg3.N = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (final3 (V7 m ρ) c).trans ?_
  rw [show V7 m ρ c main_v47 = _ from agg3 m ρ c, show V7 m ρ c main_v48 = _ from cntcol3 m ρ c,
    show V7 m ρ c main_v37 = _ from feat3 m ρ c,
    show V7 m ρ c main_arg10 = (m ((c.tc : Thread nD τ).loc main_arg10)) from at7 m ρ c main_arg10 (by decide) (by decide) (by decide) (by decide) (by decide) (by decide) (by decide),
    show V7 m ρ c main_v49 = _ from bias3 m ρ c,
    show V7 m ρ c main_arg12 = (m ((c.tc : Thread nD τ).loc main_arg12)) from at7 m ρ c main_arg12 (by decide) (by decide) (by decide) (by decide) (by decide) (by decide) (by decide)]
  exact ((refLayer3_eq (val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (val_main_v76 (F := Ideal) (m ((c.tc : Thread nD τ).loc main_arg1)))
    (val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12))
    (shapeCast S50000x1 (val_main_v76 (F := Ideal) (m ((c.tc : Thread nD τ).loc main_arg1))) shapeCasts_S50000_S50000x1) (fun p => shapeCast_a_a1_apply _ _ p 0)
    (shapeCast S1x128 (m ((c.tc : Thread nD τ).loc main_arg11)) shapeCasts_S128_S1x128) (fun q => shapeCast_a_1a_apply _ _ 0 q)).symm).trans rfl

end Cert.Bridge

end
-- ==== Proof.lean ====
/-
  The certificate of a three-layer mean-aggregation graph network against its plain reference.

  The kernel's program computes `xp = relu(x · Wp + bp)` and three layers
      h = relu((agg / max(cnt, 1)) · Wl + bl + feat · Wr),
  where `agg` sums the features of a node's in-neighbours and `cnt` counts them, the second layer reading
  `[xp, h1]` and the third `[xp, h1, h2]`; each of the four dense stages is a tiled launch over 25 blocks of 2000
  rows, and the gathers, the scatter-sums and the concatenations are host operations between the launches. The
  reference computes the same with whole-array operations.

  The frames. The reference is a straight line of host operations, none of which can fault; its run is read back
  whole. The kernel's program (at the word level and idealized: one text, read at two float families) is four
  launches among host operations; each launch's body loads its blocks, computes one value and stores it, keeping
  nothing between grid points, so the pipeline's proof data are "each input buffer holds its block, the output
  buffer holds the payload", and the launch theorem for a program of several kernel regions gives termination,
  no fault, and every buffer's final contents as a fold through @main. No operation writes an argument.

  The value. At the ideal instance a launch's output array is, entry by entry, the plain formula of its stage over
  the arrays it was entered with: the accelerator's product into a zero accumulator is the finite sum over the
  contracted axis, a change of float format is the identity, and the blocks tile the rows. The reference's stage is
  the same formula: the host's dot product is the same finite sum, and its two-step broadcasts read the bias at the
  column and the count at the row. The host operations around the stages are the same operations on both sides and
  are carried unopened, so the results agree by induction along @main. No law that needs finiteness is used: the
  precondition is never opened. The ideal pass rewrote nothing, so the idealization claim is trivial.
-/
import proofs.«102054_j21869973471634_1_alg».proof.Defs
import proofs.«102054_j21869973471634_1_alg».proof.Proof.Gen.Kernel
import proofs.«102054_j21869973471634_1_alg».proof.Proof.Gen.KernelIdeal
import proofs.«102054_j21869973471634_1_alg».proof.Proof.Gen.ReferenceIdeal
import proofs.«102054_j21869973471634_1_alg».proof.Proof.Gen.Pre_finite_inputs
import proofs.«102054_j21869973471634_1_alg».proof.Proof.Gen.ReferenceIdeal.Run
import proofs.«102054_j21869973471634_1_alg».proof.Proof.Gen.ReferenceIdeal.Read
import proofs.«102054_j21869973471634_1_alg».proof.Proof.KB.Run
import proofs.«102054_j21869973471634_1_alg».proof.Proof.KI.Run
import proofs.«102054_j21869973471634_1_alg».proof.Proof.Bridge
import Idealize.ShloMosaic.Adequacy
import Idealize.ShloMosaic.Init

noncomputable section

namespace Cert.Proof

open Idealize.ShloMosaic Idealize.SL.Sem

/-- The word-level program runs to the end, faults nowhere and leaves its arguments as launched. -/
theorem frame_k : Cert.frame_Kernel := fun m ρ _ => Cert.Kernel.Run.run_frame m ρ

/-- So does its idealization. -/
theorem frame_ki : Cert.frame_KernelIdeal := fun m ρ _ => Cert.KernelIdeal.Run.run_frame m ρ

/-- The reference's run, read back, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the thirteen arguments both idealized programs end with the result array at the
    reference's composed function of the arguments: the kernel's by the stage-by-stage induction, the reference's by
    its run read back. -/
theorem algebraic : Cert.algebraic_KernelIdeal_ReferenceIdeal := by
  intro m ρ m' ρ' _ hagree
  refine ⟨fun c => Cert.ReferenceIdeal.Read.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c => ⟨(h c).1.trans (Cert.Bridge.stage3 m ρ c), (h c).2⟩)
      (Cert.KernelIdeal.Run.run_value m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v88_eq, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
